-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S512x2048 .f32 .bf16
  ∧ IdealRules.truncf_extf.Statement Cert.KernelIdeal.S2048x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x8192 : Shape := ⟨2, ![512, 8192]⟩
abbrev S262144 : Shape := ⟨1, ![262144]⟩
abbrev S8192x1 : Shape := ⟨2, ![8192, 1]⟩
abbrev S_ : Shape := ⟨0, ![]⟩

class Facts : Prop where
  bcast_S_S512x8192 : S_.BroadcastsInDim S512x8192 (![] : Fin 0 → Fin S512x8192.rank)
  reducesTo_S512x8192_S_d0_1 : S512x8192.ReducesTo [0, 1] S_
  h_S_ : 0 < S_.numel
  bcast_S_S262144 : S_.BroadcastsInDim S262144 (![] : Fin 0 → Fin S262144.rank)
  reducesTo_S262144_S_d0 : S262144.ReducesTo [0] S_
  bcast_S_S8192x1 : S_.BroadcastsInDim S8192x1 (![] : Fin 0 → Fin S8192x1.rank)
  reducesTo_S8192x1_S_d0_1 : S8192x1.ReducesTo [0, 1] S_

variable [Facts]

def fn_part1 {F : FTy → Type} [FloatOps F] (main_arg3 : IVec S262144 32) (main_arg4 : IVec S262144 32) (main_v13 : IVec S_ 1) (main_v15 : IVec S262144 1) (main_c_5 : IVec S_ 32) : IVec S_ 1 :=
  let main_v16 : IVec S262144 32 := broadcastInDim S262144 ![] bcast_S_S262144 main_c_5
  let main_v17 : IVec S262144 1 := cmpi .slt main_arg3 main_v16
  let main_v18 : IVec S262144 1 := andi main_v15 main_v17
  let main_c_6 : IVec S_ 1 := constantI S_ 1 1#1
  let main_v19 : IVec S_ 1 := (fun x v => Host.reduce IntOp.andi x v reducesTo_S262144_S_d0 h_S_) main_v18 main_c_6
  let main_v20 : IVec S_ 1 := andi main_v13 main_v19
  let main_c_7 : IVec S_ 32 := constantI S_ 32 0#32
  let main_v21 : IVec S262144 32 := broadcastInDim S262144 ![] bcast_S_S262144 main_c_7
  let main_v22 : IVec S262144 1 := cmpi .sge main_arg4 main_v21
  let main_c_8 : IVec S_ 32 := constantI S_ 32 8192#32
  let main_v23 : IVec S262144 32 := broadcastInDim S262144 ![] bcast_S_S262144 main_c_8
  let main_v24 : IVec S262144 1 := cmpi .slt main_arg4 main_v23
  let main_v25 : IVec S262144 1 := andi main_v22 main_v24
  let main_c_9 : IVec S_ 1 := constantI S_ 1 1#1
  let main_v26 : IVec S_ 1 := (fun x v => Host.reduce IntOp.andi x v reducesTo_S262144_S_d0 h_S_) main_v25 main_c_9
  let main_v27 : IVec S_ 1 := andi main_v20 main_v26
  main_v27

def fn {F : FTy → Type} [FloatOps F] (main_arg0 : FVec F S512x8192 .f32) (main_arg1 : FVec F S262144 .f32) (main_arg2 : FVec F S8192x1 .f32) (main_arg3 : IVec S262144 32) (main_arg4 : IVec S262144 32) : IVec S_ 1 :=
  let main_v0 : FVec F S512x8192 .f32 := Host.absf main_arg0
  let main_cst : FVec F S_ .f32 := constant S_ .f32 0x7F800000#32
  let main_v1 : FVec F S512x8192 .f32 := broadcastInDim S512x8192 ![] bcast_S_S512x8192 main_cst
  let main_v2 : IVec S512x8192 1 := cmpf .olt main_v0 main_v1
  let main_c : IVec S_ 1 := constantI S_ 1 1#1
  let main_v3 : IVec S_ 1 := (fun x v => Host.reduce IntOp.andi x v reducesTo_S512x8192_S_d0_1 h_S_) main_v2 main_c
  let main_v4 : FVec F S262144 .f32 := Host.absf main_arg1
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S8192x1 .f32 := Host.absf main_arg2
  let main_cst_2 : FVec F S_ .f32 := constant S_ .f32 0x7F800000#32
  let main_v10 : FVec F S8192x1 .f32 := broadcastInDim S8192x1 ![] bcast_S_S8192x1 main_cst_2
  let main_v11 : IVec S8192x1 1 := cmpf .olt main_v9 main_v10
  let main_c_3 : IVec S_ 1 := constantI S_ 1 1#1
  let main_v12 : IVec S_ 1 := (fun x v => Host.reduce IntOp.andi x v reducesTo_S8192x1_S_d0_1 h_S_) main_v11 main_c_3
  let main_v13 : IVec S_ 1 := andi main_v8 main_v12
  let main_c_4 : IVec S_ 32 := constantI S_ 32 0#32
  let main_v14 : IVec S262144 32 := broadcastInDim S262144 ![] bcast_S_S262144 main_c_4
  let main_v15 : IVec S262144 1 := cmpi .sge main_arg3 main_v14
  let main_c_5 : IVec S_ 32 := constantI S_ 32 8192#32
  fn_part1 (F := F) main_arg3 main_arg4 main_v13 main_v15 main_c_5
-- ==== Kernel.lean ====
abbrev S512x8192 : Shape := ⟨2, ![512, 8192]⟩
abbrev S262144 : Shape := ⟨1, ![262144]⟩
abbrev S8192x1 : Shape := ⟨2, ![8192, 1]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S1x8192 : Shape := ⟨2, ![1, 8192]⟩
abbrev S2048x1024 : Shape := ⟨2, ![2048, 1024]⟩
abbrev S1x1024 : Shape := ⟨2, ![1, 1024]⟩
abbrev S512x1024 : Shape := ⟨2, ![512, 1024]⟩
abbrev S512x2048 : Shape := ⟨2, ![512, 2048]⟩

abbrev nBuf : Space → Nat
  | .hbm => 27
  | .vmem => 8
  | .smem => 0
  | _ => 0

abbrev bufTy : (tb : Table) → Fin (tcTables nBuf tb) → BufTy
  | .hbm, ⟨0, _⟩ => ⟨S512x8192, .f32⟩
  | .hbm, ⟨1, _⟩ => ⟨S262144, .f32⟩
  | .hbm, ⟨2, _⟩ => ⟨S8192x1, .f32⟩
  | .hbm, ⟨3, _⟩ => ⟨S262144, .i32⟩
  | .hbm, ⟨4, _⟩ => ⟨S262144, .i32⟩
  | .hbm, ⟨5, _⟩ => ⟨S_, .f32⟩
  | .hbm, ⟨6, _⟩ => ⟨S8192x8192, .f32⟩
  | .hbm, ⟨7, _⟩ => ⟨S_, .i32⟩
  | .hbm, ⟨8, _⟩ => ⟨S262144, .i32⟩
  | .hbm, ⟨9, _⟩ => ⟨S262144, .i1⟩
  | .hbm, ⟨10, _⟩ => ⟨S_, .i32⟩
  | .hbm, ⟨11, _⟩ => ⟨S262144, .i32⟩
  | .hbm, ⟨12, _⟩ => ⟨S262144, .i32⟩
  | .hbm, ⟨13, _⟩ => ⟨S262144, .i32⟩
  | .hbm, ⟨14, _⟩ => ⟨S_, .i32⟩
  | .hbm, ⟨15, _⟩ => ⟨S262144, .i32⟩
  | .hbm, ⟨16, _⟩ => ⟨S262144, .i1⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S262144, .i32⟩
  | .hbm, ⟨21, _⟩ => ⟨S262144x1, .i32⟩
  | .hbm, ⟨22, _⟩ => ⟨S262144x1, .i32⟩
  | .hbm, ⟨23, _⟩ => ⟨S262144x2, .i32⟩
  | .hbm, ⟨24, _⟩ => ⟨S8192x8192, .f32⟩
  | .hbm, ⟨25, _⟩ => ⟨S1x8192, .f32⟩
  | .hbm, ⟨26, _⟩ => ⟨S512x8192, .f32⟩
  | .local _ .vmem, ⟨0, _⟩ => ⟨S512x8192, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let c0 : Index := 0#32
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  ![0, v5.toNat]
def k0_cond2 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_9 : BitVec 32 := 0#32
  let v29 : BitVec 1 := Scalar.cmpi .ne v28 c0_i32_9
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S512x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  shapeCasts_S8192x1_S1x8192 : S8192x1.ShapeCasts S1x8192
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  h_S512x2048 : 0 < S512x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  scatter_S8192x8192_S262144x2_S262144_n_01_01_1_wf : ScatterDims.WF S8192x8192 S262144x2 S262144 [] [0, 1] [0, 1] 1
  dot_S512x2048_S2048x1024_S512x1024_1_0_0_1_n_n_wf : DotDims.WF S512x2048 S2048x1024 S512x1024 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S512x2048.size a ≤ S512x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S512x8192.size a
  hwx0_0 : ∀ i : grid0.Coords, EltTy.bits .f32 = 32 ∨ (Rect.block (s := S512x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S8192x8192.size a
  hwx0_1 : ∀ i : grid0.Coords, EltTy.bits .f32 = 32 ∨ (Rect.block (s := S8192x8192) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x8192.size a
  hwx0_3 : ∀ i : grid0.Coords, EltTy.bits .f32 = 32 ∨ (Rect.block (s := S512x8192) S512x1024.size (cc0_transform_3 i) (hinb0_3 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S512x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S512x8192 : Shape := ⟨2, ![512, 8192]⟩
abbrev S262144 : Shape := ⟨1, ![262144]⟩
abbrev S8192x1 : Shape := ⟨2, ![8192, 1]⟩
abbrev S8192x512 : Shape := ⟨2, ![8192, 512]⟩
abbrev S_ : Shape := ⟨0, ![]⟩
abbrev S262144x1 : Shape := ⟨2, ![262144, 1]⟩
abbrev S262144x512 : Shape := ⟨2, ![262144, 512]⟩

abbrev nBuf : Space → Nat
  | .hbm => 25
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S262144, .f32⟩
  | .hbm, ⟨2, _⟩ => ⟨S8192x1, .f32⟩
  | .hbm, ⟨3, _⟩ => ⟨S262144, .i32⟩
  | .hbm, ⟨4, _⟩ => ⟨S262144, .i32⟩
  | .hbm, ⟨5, _⟩ => ⟨S8192x512, .f32⟩
  | .hbm, ⟨6, _⟩ => ⟨S_, .i32⟩
  | .hbm, ⟨7, _⟩ => ⟨S262144, .i32⟩
  | .hbm, ⟨8, _⟩ => ⟨S262144, .i1⟩
  | .hbm, ⟨9, _⟩ => ⟨S_, .i32⟩
  | .hbm, ⟨10, _⟩ => ⟨S262144, .i32⟩
  | .hbm, ⟨11, _⟩ => ⟨S262144, .i32⟩
  | .hbm, ⟨12, _⟩ => ⟨S262144, .i32⟩
  | .hbm, ⟨13, _⟩ => ⟨S262144x1, .i32⟩
  | .hbm, ⟨14, _⟩ => ⟨S262144x512, .f32⟩
  | .hbm, ⟨15, _⟩ => ⟨S262144x1, .f32⟩
  | .hbm, ⟨16, _⟩ => ⟨S262144x512, .f32⟩
  | .hbm, ⟨17, _⟩ => ⟨S262144x512, .f32⟩
  | .hbm, ⟨18, _⟩ => ⟨S_, .f32⟩
  | .hbm, ⟨19, _⟩ => ⟨S8192x512, .f32⟩
  | .hbm, ⟨20, _⟩ => ⟨S262144x1, .i32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S512x8192, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  transposes_S512x8192_S8192x512_1_0 : S512x8192.Transposes [1, 0] S8192x512
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x512_0_1 : S262144x1.BroadcastsInDim S262144x512 (![0, 1] : Fin 2 → Fin S262144x512.rank)
  bcast_S_S8192x512 : S_.BroadcastsInDim S8192x512 (![] : Fin 0 → Fin S8192x512.rank)
  bcast_S8192x1_S8192x512_0_1 : S8192x1.BroadcastsInDim S8192x512 (![0, 1] : Fin 2 → Fin S8192x512.rank)
  transposes_S8192x512_S512x8192_1_0 : S8192x512.Transposes [1, 0] S512x8192
  gather_S8192x512_S262144x1_S262144x512_1_0_n_n_0_1_1512_wf : GatherDims.WF S8192x512 S262144x1 S262144x512 [1] [0] [] [0] [] 1 ![1, 512]
  scatter_S8192x512_S262144x1_S262144x512_1_0_0_1_wf : ScatterDims.WF S8192x512 S262144x1 S262144x512 [1] [0] [0] 1

variable [Facts₀]

def gather_S8192x512_S262144x1_S262144x512_1_0_n_n_0_1_1512 : GatherDims S8192x512 S262144x1 S262144x512 where
  offsetDims := [1]
  collapsedSliceDims := [0]
  operandBatchingDims := []
  startIndicesBatchingDims := []
  startIndexMap := [0]
  indexVectorDim := 1
  sliceSizes := ![1, 512]
  wf := gather_S8192x512_S262144x1_S262144x512_1_0_n_n_0_1_1512_wf
def scatter_S8192x512_S262144x1_S262144x512_1_0_0_1 : ScatterDims S8192x512 S262144x1 S262144x512 where
  updateWindowDims := [1]
  insertedWindowDims := [0]
  scatterDimsToOperandDims := [0]
  indexVectorDim := 1
  wf := scatter_S8192x512_S262144x1_S262144x512_1_0_0_1_wf

class Facts : Prop extends Facts₀ where

variable [Facts]
-- ==== Proof.Spec.lean ====
/-
  The mathematics of the sparse linear layer, stated once over literal index types.

  A sparse matrix is given in coordinate form by 262144 triples (row e, col e, w e).  The layer's output at batch
  row b and output column c is  sum over the triples e with col e = c of  x[b, row e] * w e,  plus bias[c].
  Equivalently, with the DENSE matrix  A[k, c] = sum over the triples e with (row e, col e) = (k, c) of w e,
  it is  (sum over k of x[b, k] * A[k, c]) + bias[c].  The two agree because multiplication distributes over the
  finite inner sum (which needs the entries to be real numbers: on the extended reals distributivity fails at the
  infinities) and the double sum over (k, e) with row e = k collapses onto e.
-/
import Idealize.ShloMosaic.PureOps.Ideal
import Idealize.ShloMosaic.Lib.ValueIdx

noncomputable section

open scoped BigOperators

namespace Cert.SparseLinear

open Idealize.ShloMosaic Idealize.ShloMosaic.ValueIdx

/-- The activations: batch 512, 8192 input features. -/
abbrev SX : Shape := ⟨2, ![512, 8192]⟩
/-- One entry per triple. -/
abbrev SE : Shape := ⟨1, ![262144]⟩
/-- The bias, a column. -/
abbrev SB : Shape := ⟨2, ![8192, 1]⟩
/-- The dense matrix. -/
abbrev SA : Shape := ⟨2, ![8192, 8192]⟩

/-- Every entry is a real number (not an infinity). -/
def Finite {s : Shape} (v : s.Idx → EReal) : Prop := ∀ i, ∃ r : ℝ, v i = (r : EReal)

/-- Every entry of an index table, read as a signed word, lies in [0, 8192). -/
def InRange (t : SE.Idx → BitVec 32) : Prop := ∀ e, 0 ≤ (t e).toInt ∧ (t e).toInt < 8192

/-- The input feature triple `e` reads, as an index of an axis of extent 8192. -/
def rowIx (row : SE.Idx → BitVec 32) (e : Fin 262144) : Fin 8192 :=
  ⟨(row (ix1 e)).toNat % 8192, Nat.mod_lt _ (by decide)⟩

/-- Entry (k, c) of the dense matrix: the weights of the triples at (k, c), summed (over a zero start). -/
def denseAt (w : SE.Idx → EReal) (row col : SE.Idx → BitVec 32) (k c : Fin 8192) : EReal :=
  0 + ∑ e ∈ Finset.univ.filter (fun e : Fin 262144 => (row (ix1 e)).toNat = k.val ∧ (col (ix1 e)).toNat = c.val), w (ix1 e)

/-- The layer's output at (b, c), triple by triple. -/
def resultAt (x : SX.Idx → EReal) (w : SE.Idx → EReal) (bias : SB.Idx → EReal) (row col : SE.Idx → BitVec 32)
    (b : Fin 512) (c : Fin 8192) : EReal :=
  (0 + ∑ e ∈ Finset.univ.filter (fun e : Fin 262144 => (col (ix1 e)).toNat = c.val), x (ix2 b (rowIx row e)) * w (ix1 e))
    + bias (ix2 c (0 : Fin 1))

/-- The layer's output as one array. -/
def result (x : SX.Idx → EReal) (w : SE.Idx → EReal) (bias : SB.Idx → EReal) (row col : SE.Idx → BitVec 32) :
    SX.Idx → EReal :=
  fun i => resultAt x w bias row col (i 0) (i 1)

/-- The product with a dense matrix `A`, plus bias, at (b, c). -/
def gemmAt (x : SX.Idx → EReal) (A : SA.Idx → EReal) (bias : SB.Idx → EReal) (b : Fin 512) (c : Fin 8192) : EReal :=
  (∑ k : Fin 8192, x (ix2 b k) * A (ix2 k c)) + bias (ix2 c (0 : Fin 1))

end Cert.SparseLinear

end
-- ==== Proof.PreFacts.lean ====
/-
  What the precondition says, entry by entry: the three float inputs hold real numbers, and both index tables
  hold words in [0, 8192).
-/
import proofs.«404794_j4415226380843_2_alg».proof.Pre_finite_inputs
import proofs.«404794_j4415226380843_2_alg».proof.Proof.Spec
import Idealize.ShloMosaic.Lib.ReduceAll
import Idealize.ShloMosaic.Lib.StableHlo.Predicate

noncomputable section

namespace Cert.SparseLinear

open Idealize.ShloMosaic Idealize.ShloMosaic.ValueIdx

/-- A rank-0 array has one index. -/
private instance subsingleton_scalar_idx : Subsingleton Cert.Pre_finite_inputs.S_.Idx :=
  ⟨fun _ _ => funext fun d => d.elim0⟩

/-! ## Extended reals: |a| < +∞ says a is a real number -/

/-- The pattern 0x7F800000 denotes +∞. -/
theorem ofBits_f32_pos_inf : Ideal.ofBits .f32 0x7F800000#32 = (⊤ : EReal) := by
  simp [Ideal.ofBits, Ideal.ieee]

/-- An extended real whose absolute value max a (-a) is below +∞ is a real number. -/
theorem exists_real_of_abs_lt_top (a : EReal) (h : max a (-a) < (⊤ : EReal)) : ∃ r : ℝ, a = (r : EReal) := by
  induction a using EReal.rec with
  | bot => simp at h
  | coe r => exact ⟨r, rfl⟩
  | top => simp at h

/-- The printed comparison |a| < 0x7F800000 coming out 1 says a is a real number. -/
theorem exists_real_of_cmp_abs_inf (a : EReal)
    (h : Ideal.cmp .olt (max a (-a)) (Ideal.ofBits .f32 0x7F800000#32) = 1#1) : ∃ r : ℝ, a = (r : EReal) := by
  rw [ofBits_f32_pos_inf] at h
  unfold Ideal.cmp at h
  rw [StableHlo.Predicate.ofBool_eq_one_iff] at h
  exact exists_real_of_abs_lt_top a (of_decide_eq_true h)

/-- The conjunction, over all entries of an array of any shape, of |v| < +∞ came out 1: every entry of v is a real number. -/
theorem finite_of_all_abs_lt_inf {s t u : Shape} [Subsingleton t.Idx] {axes : List (Fin s.rank)} (v : s.Idx → EReal)
    (hb : Cert.Pre_finite_inputs.S_.BroadcastsInDim s (![] : Fin 0 → Fin s.rank)) (init : u.Idx → BitVec 1)
    (hr : s.ReducesTo axes t) (hu : 0 < u.numel) (j : t.Idx)
    (e : Host.reduce IntOp.andi
          (cmpf (F := Ideal) (φ := .f32) .olt (Host.absf (F := Ideal) (φ := .f32) v)
            (broadcastInDim s ![] hb (constant (F := Ideal) Cert.Pre_finite_inputs.S_ .f32 0x7F800000#32)))
          init hr hu j = 1#1) : Finite v := by
  intro i
  exact exists_real_of_cmp_abs_inf (v i) (Host.reduce_andi_all _ init hr hu j e i)

/-! ## Words: the signed compares against 0 and 8192 -/

/-- w ≥ 0 signed, as a printed compare that came out 1. -/
theorem toInt_nonneg_of_sge_zero (a : BitVec 32) (h : IntOp.cmpi .sge a 0#32 = 1#1) : 0 ≤ a.toInt := by
  unfold IntOp.cmpi at h
  rw [StableHlo.Predicate.ofBool_eq_one_iff] at h
  have h' : (0#32 : BitVec 32).toInt ≤ a.toInt := of_decide_eq_true h
  have z : (0#32 : BitVec 32).toInt = 0 := by decide
  rwa [z] at h'

/-- w < 8192 signed, as a printed compare that came out 1. -/
theorem toInt_lt_of_slt_8192 (a : BitVec 32) (h : IntOp.cmpi .slt a 8192#32 = 1#1) : a.toInt < 8192 := by
  unfold IntOp.cmpi at h
  rw [StableHlo.Predicate.ofBool_eq_one_iff] at h
  have h' : a.toInt < (8192#32 : BitVec 32).toInt := of_decide_eq_true h
  have z : (8192#32 : BitVec 32).toInt = 8192 := by decide
  rwa [z] at h'

/-- The conjunction, over all entries of an index table, of (t ≥ 0 and t < 8192) came out 1: every word of t, read signed,
    lies in [0, 8192). -/
theorem inRange_of_all {t u : Shape} [Subsingleton t.Idx] {axes : List (Fin SE.rank)} (tbl : SE.Idx → BitVec 32)
    (hb : Cert.Pre_finite_inputs.S_.BroadcastsInDim SE (![] : Fin 0 → Fin SE.rank)) (init : u.Idx → BitVec 1)
    (hr : SE.ReducesTo axes t) (hu : 0 < u.numel) (j : t.Idx)
    (e : Host.reduce IntOp.andi
          (andi (cmpi .sge tbl (broadcastInDim SE ![] hb (constantI Cert.Pre_finite_inputs.S_ 32 0#32)))
            (cmpi .slt tbl (broadcastInDim SE ![] hb (constantI Cert.Pre_finite_inputs.S_ 32 8192#32))))
          init hr hu j = 1#1) : InRange tbl := by
  intro i
  obtain ⟨h0, h1⟩ := IntOp.andi_eq_one.1 (Host.reduce_andi_all _ init hr hu j e i)
  exact ⟨toInt_nonneg_of_sge_zero (tbl i) h0, toInt_lt_of_slt_8192 (tbl i) h1⟩

/-! ## The precondition, decoded -/

theorem facts_of_pre [Cert.Pre_finite_inputs.Facts]
    (x : SX.Idx → EReal) (w : SE.Idx → EReal) (bias : SB.Idx → EReal) (row col : SE.Idx → BitVec 32)
    (h : Cert.Pre_finite_inputs.fn (F := Ideal) x w bias row col = fun _ => 1#1) :
    Finite x ∧ Finite w ∧ Finite bias ∧ InRange row ∧ InRange col := by
  have h0 := congrFun h ValueIdx.ix0
  unfold Cert.Pre_finite_inputs.fn at h0
  dsimp only at h0
  unfold Cert.Pre_finite_inputs.fn_part1 at h0
  dsimp only at h0
  -- the five conjuncts, joined by and
  obtain ⟨h1, hcol⟩ := IntOp.andi_eq_one.1 h0
  obtain ⟨h2, hrow⟩ := IntOp.andi_eq_one.1 h1
  obtain ⟨h3, hbias⟩ := IntOp.andi_eq_one.1 h2
  obtain ⟨hx, hw⟩ := IntOp.andi_eq_one.1 h3
  exact ⟨finite_of_all_abs_lt_inf x _ _ _ _ _ hx, finite_of_all_abs_lt_inf w _ _ _ _ _ hw,
    finite_of_all_abs_lt_inf bias _ _ _ _ _ hbias, inRange_of_all row _ _ _ _ _ hrow, inRange_of_all col _ _ _ _ _ hcol⟩

end Cert.SparseLinear

end
-- ==== Proof.RefValue.lean ====
/-
  The reference computes the triple form: gather the rows of x-transposed, scale by the weights, add into the
  segment of the output column, add the bias, transpose back.

  Read at (b, c): the last transpose reads the sum stage at (c, b); the bias broadcast reads bias[c]; the scatter-add
  over a zero array is the sum of the updates (e, b') whose index word col e, read signed, is c and whose window
  coordinate b' is b; such an update is the product of the gathered activation x-transposed[row e, b] = x[b, row e]
  and the weight w e.  On index tables with entries in [0, 8192) the wrap of negative indices, the gather's clamp and
  the signed reading are all the identity.
-/
import proofs.«404794_j4415226380843_2_alg».proof.Proof.Gen.ReferenceIdeal.Read
import proofs.«404794_j4415226380843_2_alg».proof.Proof.Spec
import Idealize.ShloMosaic.Lib.StableHlo.Predicate
import Idealize.ShloMosaic.PureOps.Ideal.Laws

noncomputable section

open scoped BigOperators

namespace Cert.SparseLinear

open Idealize.ShloMosaic Idealize.ShloMosaic.ValueIdx
open Cert.ReferenceIdeal

/-! ## The scatter's dimension numbers, read at an update index (e, b') -/

/-- The scatter's dimension numbers: updates [262144, 512] into [8192, 512], the index word naming axis 0. -/
private abbrev sd [Cert.ReferenceIdeal.Facts] := scatter_S8192x512_S262144x1_S262144x512_1_0_0_1

/-- On axis 0 the window starts at the update's index word, read signed. -/
private theorem scatter_start0 [Cert.ReferenceIdeal.Facts] (idx : IVec S262144x1 32) (e : Fin 262144) (b' : Fin 512) :
    sd.start (ix2 e b') idx (0 : Fin 2) = (idx (ix2 e (0 : Fin 1))).toInt := by
  unfold ScatterDims.start
  rw [dif_pos (show (0 : Fin 2) ∈ sd.scatterDimsToOperandDims from List.mem_singleton.mpr rfl)]
  congr 2
  funext a; refine Fin.ext ?_
  match a with
  | ⟨0, _⟩ => rfl
  | ⟨1, _⟩ => rfl

/-- On axis 1 (not named by the index) the window starts at 0. -/
private theorem scatter_start1 [Cert.ReferenceIdeal.Facts] (idx : IVec S262144x1 32) (e : Fin 262144) (b' : Fin 512) :
    sd.start (ix2 e b') idx (1 : Fin 2) = 0 := by
  unfold ScatterDims.start
  have h : (1 : Fin 2) ∉ sd.scatterDimsToOperandDims := show (1 : Fin 2) ∉ ([0] : List (Fin 2)) from by decide
  rw [dif_neg h]

/-- Axis 0 is an inserted axis: no window coordinate. -/
private theorem scatter_window0 [Cert.ReferenceIdeal.Facts] (e : Fin 262144) (b' : Fin 512) :
    sd.window (ix2 e b') (0 : Fin 2) = 0 := by
  unfold ScatterDims.window
  have h : (0 : Fin 2) ∉ sd.sKept := show (0 : Fin 2) ∉ S8192x512.kept [0] from by decide
  rw [dif_neg h]

/-- On axis 1 the window coordinate is the update's second coordinate. -/
private theorem scatter_window1 [Cert.ReferenceIdeal.Facts] (e : Fin 262144) (b' : Fin 512) :
    sd.window (ix2 e b') (1 : Fin 2) = b'.val := by
  unfold ScatterDims.window
  have h : (1 : Fin 2) ∈ sd.sKept := show (1 : Fin 2) ∈ S8192x512.kept [0] from by decide
  rw [dif_pos h]
  rfl

/-- Update (e, b') lands at (c, b) exactly when its scatter index, read signed, is c and b' = b. -/
private theorem scatter_resultIdx_iff [Cert.ReferenceIdeal.Facts] (idx : IVec S262144x1 32) (e : Fin 262144) (b' b : Fin 512) (c : Fin 8192) :
    sd.resultIdx? (ix2 e b') idx = some (ix2 c b) ↔ (idx (ix2 e (0 : Fin 1))).toInt = (c.val : Int) ∧ b' = b := by
  unfold ScatterDims.resultIdx?
  constructor
  · intro h
    split at h
    · rename_i hin
      have hf := Option.some.inj h
      have h0 := congrArg (fun f => (f (0 : Fin 2)).val) hf
      have h1 := congrArg (fun f => (f (1 : Fin 2)).val) hf
      have hin0 := hin (0 : Fin 2)
      simp only [scatter_start0, scatter_start1, scatter_window0, scatter_window1] at h0 h1 hin0
      change _ = c.val at h0
      change _ = b.val at h1
      refine ⟨by omega, Fin.ext (by omega)⟩
    · exact absurd h (by simp)
  · rintro ⟨hc, rfl⟩
    have hin : ∀ a : Fin 2, 0 ≤ sd.start (ix2 e b') idx a + (sd.window (ix2 e b') a : Int) ∧
        sd.start (ix2 e b') idx a + (sd.window (ix2 e b') a : Int) < (S8192x512.size a : Int) := by
      intro a
      match a with
      | ⟨0, _⟩ =>
        show 0 ≤ sd.start (ix2 e b') idx (0 : Fin 2) + (sd.window (ix2 e b') (0 : Fin 2) : Int) ∧
          sd.start (ix2 e b') idx (0 : Fin 2) + (sd.window (ix2 e b') (0 : Fin 2) : Int) < ((8192 : Nat) : Int)
        rw [scatter_start0, scatter_window0, hc]
        have := c.isLt
        omega
      | ⟨1, _⟩ =>
        show 0 ≤ sd.start (ix2 e b') idx (1 : Fin 2) + (sd.window (ix2 e b') (1 : Fin 2) : Int) ∧
          sd.start (ix2 e b') idx (1 : Fin 2) + (sd.window (ix2 e b') (1 : Fin 2) : Int) < ((512 : Nat) : Int)
        rw [scatter_start1, scatter_window1]
        have := b'.isLt
        omega
    rw [dif_pos hin]
    congr 1
    funext a; refine Fin.ext ?_
    match a with
    | ⟨0, _⟩ =>
      show (sd.start (ix2 e b') idx (0 : Fin 2) + (sd.window (ix2 e b') (0 : Fin 2) : Int)).toNat = c.val
      rw [scatter_start0, scatter_window0, hc]; omega
    | ⟨1, _⟩ =>
      show (sd.start (ix2 e b') idx (1 : Fin 2) + (sd.window (ix2 e b') (1 : Fin 2) : Int)).toNat = b'.val
      rw [scatter_start1, scatter_window1]; omega

/-! ## The gather's dimension numbers, read at a result index (e, b) -/

/-- The gather's dimension numbers: rows of [8192, 512] at 262144 start indices, slices 1 × 512. -/
private abbrev gd [Cert.ReferenceIdeal.Facts] := gather_S8192x512_S262144x1_S262144x512_1_0_n_n_0_1_1512

/-- The gather read at (e, b): the operand's row at the start index read signed and clamped into [0, 8191], column b. -/
private theorem gather_apply [Cert.ReferenceIdeal.Facts] {α : Type} (x : S8192x512.Idx → α) (idx : IVec S262144x1 32) (e : Fin 262144) (b : Fin 512)
    (k : Fin 8192) (hk : k.val = min (idx (ix2 e (0 : Fin 1))).toInt.toNat 8191) :
    Host.gather gd x idx (ix2 e b) = x (ix2 k b) := by
  unfold Host.gather
  congr 1
  funext a
  refine Fin.ext ?_
  match a with
  | ⟨0, _⟩ =>
    show gd.start (ix2 e b) idx (0 : Fin 2) + gd.batchCoord (ix2 e b) (0 : Fin 2) + gd.offCoord (ix2 e b) (0 : Fin 2) = k.val
    have hoff : (0 : Fin 2) ∉ gd.sKept := show (0 : Fin 2) ∉ S8192x512.kept ([0] ++ []) from by decide
    rw [GatherDims.batchCoord_eq_zero _ _ _ List.not_mem_nil, GatherDims.offCoord_eq_zero _ _ _ hoff, hk]
    simp only [Nat.add_zero]
    unfold GatherDims.start
    have hm : (0 : Fin 2) ∈ gd.startIndexMap := List.mem_singleton.mpr rfl
    rw [dif_pos hm]
    have hsi : gd.siIdx (ix2 e b) ⟨List.idxOf (0 : Fin 2) gd.startIndexMap, List.idxOf_lt_length_iff.2 hm⟩ = ix2 e (0 : Fin 1) := by
      funext c; refine Fin.ext ?_
      match c with
      | ⟨0, _⟩ => rfl
      | ⟨1, _⟩ => rfl
    rw [hsi]
    rfl
  | ⟨1, _⟩ =>
    show gd.start (ix2 e b) idx (1 : Fin 2) + gd.batchCoord (ix2 e b) (1 : Fin 2) + gd.offCoord (ix2 e b) (1 : Fin 2) = b.val
    rw [GatherDims.batchCoord_eq_zero _ _ _ List.not_mem_nil]
    have hs : gd.start (ix2 e b) idx (1 : Fin 2) = 0 := by
      unfold GatherDims.start
      have hm : (1 : Fin 2) ∉ gd.startIndexMap := show (1 : Fin 2) ∉ ([0] : List (Fin 2)) from by decide
      rw [dif_neg hm]
    have ho : gd.offCoord (ix2 e b) (1 : Fin 2) = b.val := by
      unfold GatherDims.offCoord
      have hm : (1 : Fin 2) ∈ gd.sKept := show (1 : Fin 2) ∈ S8192x512.kept ([0] ++ []) from by decide
      rw [dif_pos hm]
      rfl
    rw [hs, ho]; omega

/-! ## Sums and words -/

/-- A sum over the rank-2 indices that satisfy a condition which fixes the second coordinate to `b` and asks `Q` of
    the first is the sum over the first coordinates that satisfy `Q`. -/
private theorem sum_filter_ix2 {M : Type*} [AddCommMonoid M] {n0 n1 : Nat} (f : (⟨2, ![n0, n1]⟩ : Shape).Idx → M)
    (P : (⟨2, ![n0, n1]⟩ : Shape).Idx → Prop) [DecidablePred P] (Q : Fin n0 → Prop) [DecidablePred Q] (b : Fin n1)
    (h : ∀ e b', P (ix2 e b') ↔ Q e ∧ b' = b) :
    ∑ j ∈ Finset.univ.filter P, f j = ∑ e ∈ Finset.univ.filter Q, f (ix2 e b) := by
  rw [Finset.sum_filter, sum_idx2, Finset.sum_filter]
  refine Finset.sum_congr rfl fun e _ => ?_
  by_cases hq : Q e
  · rw [if_pos hq, Finset.sum_eq_single b]
    · rw [if_pos ((h e b).2 ⟨hq, rfl⟩)]
    · intro b' _ hb'; rw [if_neg (fun hp => hb' ((h e b').1 hp).2)]
    · intro hb; exact absurd (Finset.mem_univ b) hb
  · rw [if_neg hq]
    exact Finset.sum_eq_zero fun b' _ => if_neg (fun hp => hq ((h e b').1 hp).1)

/-- An in-range word is below 8192 and reads the same signed and unsigned. -/
private theorem inRange_word {t : SE.Idx → BitVec 32} (h : InRange t) (e : SE.Idx) :
    (t e).toNat < 8192 ∧ (t e).toInt = ((t e).toNat : Int) := by
  obtain ⟨h0, h1⟩ := h e
  have hc := BitVec.toInt_eq_toNat_cond (t e)
  have hlt : (t e).toNat < 4294967296 := (t e).isLt
  norm_num at hc
  split at hc <;> omega

/-- On an in-range table the wrap of negative indices (`select (t < 0) (t + 8192) t`) is the identity. -/
private theorem wrap_eq (t : SE.Idx → BitVec 32) (h : InRange t) (e : SE.Idx) :
    Read.val_main_v5 (F := Ideal) t e = t e := by
  rw [Read.val_main_v5_apply, Read.val_main_v2_apply, Read.val_main_v1_apply, Read.val_main_c_apply]
  have hz : IntOp.cmpi .slt (t e) 0#32 = 0#1 := by
    refine eq_zero_of_ne_one fun h1 => ?_
    have h2 := (StableHlo.Predicate.slt_iff_toNat (a := t e) (b := 0#32)
      (by have := (inRange_word h e).1; omega) (by decide)).1 h1
    simp at h2
  rw [hz, select_zero]

/-! ## The stages chained -/

/-- A product term of the reference at (e, b): the activation of batch row b at the input feature triple e reads, times
    the triple's weight. -/
private theorem ref_term [Cert.ReferenceIdeal.Facts] (x : SX.Idx → EReal) (w : SE.Idx → EReal) (row : SE.Idx → BitVec 32)
    (hrow : InRange row) (e : Fin 262144) (b : Fin 512) :
    Read.val_main_v10 (F := Ideal) x w row (ix2 e b) = x (ix2 b (rowIx row e)) * w (ix1 e) := by
  rw [Read.val_main_v10_apply]
  show Read.val_main_v7 (F := Ideal) x row (ix2 e b) * Read.val_main_v9 (F := Ideal) w (ix2 e b) = _
  have h9 : Read.val_main_v9 (F := Ideal) w (ix2 e b) = w (ix1 e) := by
    rw [Read.val_main_v9_apply, Read.val_main_v8_apply]
    congr 1
    funext a; match a with | ⟨0, _⟩ => rfl
  have h6 : Read.val_main_v6 (F := Ideal) row (ix2 e (0 : Fin 1)) = row (ix1 e) := by
    rw [Read.val_main_v6_apply]
    have : Read.idx_main_v6 (ix2 e (0 : Fin 1)) = ix1 e := by
      funext a; match a with | ⟨0, _⟩ => rfl
    rw [this, wrap_eq row hrow]
  have h7 : Read.val_main_v7 (F := Ideal) x row (ix2 e b) = x (ix2 b (rowIx row e)) := by
    unfold Read.val_main_v7
    rw [gather_apply _ _ e b (rowIx row e) (by
      rw [h6]
      obtain ⟨hlt, hti⟩ := inRange_word hrow (ix1 e)
      show (row (ix1 e)).toNat % 8192 = _
      rw [hti]
      omega)]
    rw [Read.val_main_v0_apply]
    congr 1
    funext a; match a with | ⟨0, _⟩ => rfl | ⟨1, _⟩ => rfl
  rw [h7, h9]

/-- The reference at (b, c), as the triple sum plus bias. -/
theorem ref_at [Cert.ReferenceIdeal.Facts] (x : SX.Idx → EReal) (w : SE.Idx → EReal) (bias : SB.Idx → EReal)
    (row col : SE.Idx → BitVec 32) (hrow : InRange row) (hcol : InRange col) (b : Fin 512) (c : Fin 8192) :
    Read.val_main_v16 (F := Ideal) x w bias row col (ix2 b c) = resultAt x w bias row col b c := by
  rw [Read.val_main_v16_apply]
  have h16 : Read.idx_main_v16 (ix2 b c) = ix2 c b := by
    funext a; match a with | ⟨0, _⟩ => rfl | ⟨1, _⟩ => rfl
  rw [h16, Read.val_main_v15_apply]
  show Read.val_main_v13 (F := Ideal) x w row col (ix2 c b) + Read.val_main_v14 (F := Ideal) bias (ix2 c b) = _
  have h14 : Read.val_main_v14 (F := Ideal) bias (ix2 c b) = bias (ix2 c (0 : Fin 1)) := by
    rw [Read.val_main_v14_apply]
    congr 1
    funext a; match a with | ⟨0, _⟩ => rfl | ⟨1, _⟩ => rfl
  have h11 : Read.val_main_v11 (F := Ideal) (ix2 c b) = 0 := by
    rw [Read.val_main_v11_apply, Read.val_main_cst_apply]
    exact Ideal.ofBits_zero_f32
  have h12 : ∀ e : Fin 262144, Read.val_main_v12 (F := Ideal) col (ix2 e (0 : Fin 1)) = col (ix1 e) := by
    intro e
    rw [Read.val_main_v12_apply]
    congr 1
    funext a; match a with | ⟨0, _⟩ => rfl
  have h13 : Read.val_main_v13 (F := Ideal) x w row col (ix2 c b)
      = 0 + ∑ e ∈ Finset.univ.filter (fun e : Fin 262144 => (col (ix1 e)).toNat = c.val),
          x (ix2 b (rowIx row e)) * w (ix1 e) := by
    unfold Read.val_main_v13 Host.scatterAdd
    rw [Ideal.hostScatterAdd_def]
    unfold Ideal.hostScatterAdd
    rw [h11]
    refine congrArg (fun s : EReal => 0 + s) ?_
    refine (sum_filter_ix2 _ _ (fun e : Fin 262144 => (col (ix1 e)).toNat = c.val) b (fun e b' => ?_)).trans ?_
    · rw [scatter_resultIdx_iff, h12, (inRange_word hcol (ix1 e)).2]
      constructor
      · rintro ⟨h1, h2⟩; exact ⟨by exact_mod_cast h1, h2⟩
      · rintro ⟨h1, h2⟩; exact ⟨by exact_mod_cast h1, h2⟩
    · exact Finset.sum_congr rfl fun e _ => ref_term x w row hrow e b
  rw [h13, h14]
  rfl

theorem ref_eq [Cert.ReferenceIdeal.Facts] (x : SX.Idx → EReal) (w : SE.Idx → EReal) (bias : SB.Idx → EReal) (row col : SE.Idx → BitVec 32)
    (hrow : InRange row) (hcol : InRange col) :
    Cert.ReferenceIdeal.Read.val_main_v16 (F := Ideal) x w bias row col = result x w bias row col := by
  funext i
  refine (congrArg (Read.val_main_v16 (F := Ideal) x w bias row col) (eq_ix2 i)).trans ?_
  exact ref_at x w bias row col hrow hcol (i 0) (i 1)

end Cert.SparseLinear

end
-- ==== Proof.Algebra.lean ====
/-
  The algebra that joins the dense form of the sparse linear layer to its triple form, and the two facts the
  blocked three-pass product needs: on real entries the two residual passes vanish, and a sum over 8192 terms is
  the sum of its four consecutive blocks of 2048.
-/
import proofs.«404794_j4415226380843_2_alg».proof.Proof.Spec
import Mathlib.Data.EReal.Basic
import Mathlib.Data.EReal.Operations
import Mathlib.Algebra.BigOperators.Fin

noncomputable section

open scoped BigOperators

namespace Cert.SparseLinear

open Idealize.ShloMosaic Idealize.ShloMosaic.ValueIdx

/-- The coercion from the reals to the extended reals commutes with a finite sum. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- With real entries the residuals `g - g` and `f - f` are zero, so of the three passes only the first remains. -/
theorem passes_eq {n : ℕ} (f g : Fin n → EReal) (hf : ∀ r, ∃ a : ℝ, f r = (a : EReal)) (hg : ∀ r, ∃ a : ℝ, g r = (a : EReal)) :
    ((0 + ∑ r, f r * g r) + (0 + ∑ r, f r * (g r - g r))) + (0 + ∑ r, (f r - f r) * g r) = ∑ r, f r * g r := by
  choose a ha using hf
  choose b hb using hg
  have h1 : ∀ r, f r * (g r - g r) = 0 := by
    intro r
    rw [hb r, ← EReal.coe_sub, sub_self, EReal.coe_zero, mul_zero]
  have h2 : ∀ r, (f r - f r) * g r = 0 := by
    intro r
    rw [ha r, ← EReal.coe_sub, sub_self, EReal.coe_zero, zero_mul]
  simp only [h1, h2, Finset.sum_const_zero, zero_add, add_zero]

/-- A sum over `n + m` terms is the sum of its first `n` terms plus the sum of its last `m` terms. -/
private theorem sum_split_add (n m : ℕ) (f : Fin (n + m) → EReal) :
    ∑ k, f k = (∑ r : Fin n, f ⟨r.val, by omega⟩) + ∑ r : Fin m, f ⟨n + r.val, by omega⟩ := by
  rw [Fin.sum_univ_add]
  rfl

/-- A sum over 8192 terms, accumulated block by block over a zero start. -/
theorem sum_four_blocks (f : Fin 8192 → EReal) :
    (((0 + ∑ r : Fin 2048, f ⟨r.val, by omega⟩) + ∑ r : Fin 2048, f ⟨2048 + r.val, by omega⟩)
        + ∑ r : Fin 2048, f ⟨4096 + r.val, by omega⟩) + ∑ r : Fin 2048, f ⟨6144 + r.val, by omega⟩
      = ∑ k, f k := by
  rw [zero_add]
  symm
  refine (sum_split_add 6144 2048 f).trans ?_
  congr 1
  refine (sum_split_add 4096 2048 (fun r => f ⟨r.val, by omega⟩)).trans ?_
  congr 1
  exact sum_split_add 2048 2048 (fun r => f ⟨r.val, by omega⟩)

/-- A dense entry is a finite sum of real weights, hence real. -/
theorem denseAt_finite (w : SE.Idx → EReal) (row col : SE.Idx → BitVec 32) (hw : Finite w) (k c : Fin 8192) :
    ∃ a : ℝ, denseAt w row col k c = (a : EReal) := by
  choose a ha using hw
  refine ⟨∑ e ∈ Finset.univ.filter
    (fun e : Fin 262144 => (row (ix1 e)).toNat = k.val ∧ (col (ix1 e)).toNat = c.val), a (ix1 e), ?_⟩
  unfold denseAt
  rw [zero_add, coe_sum]
  exact Finset.sum_congr rfl (fun e _ => ha (ix1 e))

/-- A signed 32-bit word in [0, 8192) has an unsigned value below 8192. -/
private theorem toNat_lt_of_inRange (t : SE.Idx → BitVec 32) (h : InRange t) (e : SE.Idx) : (t e).toNat < 8192 := by
  have h1 := h e
  have h2 : (t e).toNat < 2 ^ 32 := (t e).isLt
  rw [BitVec.toInt_eq_toNat_cond] at h1
  split at h1 <;> omega

/-- For an in-range row table, triple `e` reads feature `k` exactly when its row word has unsigned value `k`. -/
private theorem rowIx_eq_iff (row : SE.Idx → BitVec 32) (h : InRange row) (e : Fin 262144) (k : Fin 8192) :
    (row (ix1 e)).toNat = k.val ↔ rowIx row e = k := by
  have hlt := toNat_lt_of_inRange row h (ix1 e)
  unfold rowIx
  rw [Fin.ext_iff]
  show _ ↔ (row (ix1 e)).toNat % 8192 = k.val
  rw [Nat.mod_eq_of_lt hlt]

/-- In the reals: the sum over `k` of `X k` times the sum of the `W e` with `ρ e = k` and `P e` is the sum
    over the `e` with `P e` of `X (ρ e) * W e`. -/
private theorem real_collapse {E K : Type} [Fintype E] [Fintype K] [DecidableEq K] (X : K → ℝ) (W : E → ℝ) (ρ : E → K)
    (P : E → Prop) [DecidablePred P] :
    ∑ k, X k * ∑ e ∈ Finset.univ.filter (fun e => ρ e = k ∧ P e), W e
      = ∑ e ∈ Finset.univ.filter P, X (ρ e) * W e := by
  simp only [Finset.mul_sum, Finset.sum_filter]
  rw [Finset.sum_comm]
  refine Finset.sum_congr rfl (fun e _ => ?_)
  by_cases hP : P e
  · simp [hP]
  · simp [hP]

/-- THE LAW: x times the dense matrix is the sum over the triples. Distributivity over the inner sum needs real
    entries; the double sum over (k, e) with `row e = k` collapses onto e because every row index is below 8192. -/
theorem gemm_eq_result (x : SX.Idx → EReal) (w : SE.Idx → EReal) (bias : SB.Idx → EReal) (row col : SE.Idx → BitVec 32)
    (hx : Finite x) (hw : Finite w) (hrow : InRange row) (b : Fin 512) (c : Fin 8192) :
    gemmAt x (fun i => denseAt w row col (i 0) (i 1)) bias b c = resultAt x w bias row col b c := by
  choose xr hxr using hx
  choose wr hwr using hw
  have hL : ∀ k : Fin 8192, x (ix2 b k) * denseAt w row col k c
      = ((xr (ix2 b k) * ∑ e ∈ Finset.univ.filter
          (fun e : Fin 262144 => rowIx row e = k ∧ (col (ix1 e)).toNat = c.val), wr (ix1 e) : ℝ) : EReal) := by
    intro k
    unfold denseAt
    rw [zero_add, hxr, EReal.coe_mul, coe_sum]
    refine congrArg (fun t => (xr (ix2 b k) : EReal) * t) ?_
    refine Finset.sum_congr (Finset.filter_congr ?_) (fun e _ => hwr (ix1 e))
    intro e _
    rw [rowIx_eq_iff row hrow e k]
  unfold gemmAt resultAt
  refine congrArg (fun t => t + bias (ix2 c (0 : Fin 1))) ?_
  rw [zero_add]
  calc ∑ k : Fin 8192, x (ix2 b k) * denseAt w row col k c
      = ∑ k : Fin 8192, ((xr (ix2 b k) * ∑ e ∈ Finset.univ.filter
          (fun e : Fin 262144 => rowIx row e = k ∧ (col (ix1 e)).toNat = c.val), wr (ix1 e) : ℝ) : EReal) :=
        Finset.sum_congr rfl (fun k _ => hL k)
    _ = ((∑ k : Fin 8192, xr (ix2 b k) * ∑ e ∈ Finset.univ.filter
          (fun e : Fin 262144 => rowIx row e = k ∧ (col (ix1 e)).toNat = c.val), wr (ix1 e) : ℝ) : EReal) :=
        (coe_sum _ _).symm
    _ = ((∑ e ∈ Finset.univ.filter (fun e : Fin 262144 => (col (ix1 e)).toNat = c.val),
          xr (ix2 b (rowIx row e)) * wr (ix1 e) : ℝ) : EReal) :=
        congrArg (fun t : ℝ => (t : EReal))
          (real_collapse (fun k => xr (ix2 b k)) (fun e => wr (ix1 e)) (rowIx row)
            (fun e : Fin 262144 => (col (ix1 e)).toNat = c.val))
    _ = ∑ e ∈ Finset.univ.filter (fun e : Fin 262144 => (col (ix1 e)).toNat = c.val),
          ((xr (ix2 b (rowIx row e)) * wr (ix1 e) : ℝ) : EReal) := coe_sum _ _
    _ = ∑ e ∈ Finset.univ.filter (fun e : Fin 262144 => (col (ix1 e)).toNat = c.val),
          x (ix2 b (rowIx row e)) * w (ix1 e) :=
        Finset.sum_congr rfl (fun e _ => by rw [EReal.coe_mul, hxr, hwr])

end Cert.SparseLinear

end
-- ==== Proof.Payload.lean ====
/-
  The body's three stored values, read at an index: the zero block; the accumulator plus the three matrix passes
  (high·high, high·residual, residual·high, each a sum of 2048 products over a zero start); the accumulator plus
  the bias row.
-/
import proofs.«404794_j4415226380843_2_alg».proof.Proof.Gen.KernelIdeal.Skeleton
import proofs.«404794_j4415226380843_2_alg».proof.Proof.Spec
import Idealize.ShloMosaic.PureOps.Ideal.Laws
import Idealize.ShloMosaic.Lib.Pipeline.Value
import Idealize.ShloMosaic.Lib.ValueLayout

noncomputable section

open scoped BigOperators

namespace Cert.SparseLinear

open Idealize.ShloMosaic Idealize.ShloMosaic.ValueIdx
open Cert.KernelIdeal Cert.KernelIdeal.Gen

/-! ## The matrix product's operand indices, coordinate by coordinate

The product contracts the left operand's axis 1 with the right operand's axis 0; the left operand's axis 0 is the
result's axis 0 and the right operand's axis 1 is the result's axis 1. -/

/-- The left operand's row is the result's row. -/
theorem lhs_mm_0 [Cert.KernelIdeal.Facts] (i : S512x1024.Idx) (c : dot_S512x2048_S2048x1024_S512x1024_1_0_0_1_n_n.contr.Idx) :
    (dot_S512x2048_S2048x1024_S512x1024_1_0_0_1_n_n.lhsIdx i c 0).val = (i 0).val := by
  unfold DotDims.lhsIdx
  rw [dif_neg (show ¬(0 : Fin S512x2048.rank) ∈ dot_S512x2048_S2048x1024_S512x1024_1_0_0_1_n_n.lhsBatch by decide),
    dif_pos (show (0 : Fin S512x2048.rank) ∈ dot_S512x2048_S2048x1024_S512x1024_1_0_0_1_n_n.lhsNonContracting by decide)]
  rfl

/-- The left operand's column is the contraction position. -/
theorem lhs_mm_1 [Cert.KernelIdeal.Facts] (i : S512x1024.Idx) (c : dot_S512x2048_S2048x1024_S512x1024_1_0_0_1_n_n.contr.Idx) :
    (dot_S512x2048_S2048x1024_S512x1024_1_0_0_1_n_n.lhsIdx i c 1).val = (c ⟨0, by decide⟩).val :=
  dot_S512x2048_S2048x1024_S512x1024_1_0_0_1_n_n.lhsIdx_val_of_single rfl i c

/-- The right operand's row is the contraction position. -/
theorem rhs_mm_0 [Cert.KernelIdeal.Facts] (i : S512x1024.Idx) (c : dot_S512x2048_S2048x1024_S512x1024_1_0_0_1_n_n.contr.Idx) :
    (dot_S512x2048_S2048x1024_S512x1024_1_0_0_1_n_n.rhsIdx i c 0).val = (c ⟨0, by decide⟩).val :=
  dot_S512x2048_S2048x1024_S512x1024_1_0_0_1_n_n.rhsIdx_val_of_single rfl i c

/-- The right operand's column is the result's column. -/
theorem rhs_mm_1 [Cert.KernelIdeal.Facts] (i : S512x1024.Idx) (c : dot_S512x2048_S2048x1024_S512x1024_1_0_0_1_n_n.contr.Idx) :
    (dot_S512x2048_S2048x1024_S512x1024_1_0_0_1_n_n.rhsIdx i c 1).val = (i 1).val := by
  unfold DotDims.rhsIdx
  rw [dif_neg (show ¬(1 : Fin S2048x1024.rank) ∈ dot_S512x2048_S2048x1024_S512x1024_1_0_0_1_n_n.rhsBatch by decide),
    dif_pos (show (1 : Fin S2048x1024.rank) ∈ dot_S512x2048_S2048x1024_S512x1024_1_0_0_1_n_n.rhsNonContracting by decide)]
  rfl

/-- The matrix product into a zero accumulator, read at (p, q): the zero start plus the 2048 products of the left
    operand's row p with the right operand's column q. -/
theorem mm_apply [Cert.KernelIdeal.Facts] (l : FVec Ideal S512x2048 .bf16) (r : FVec Ideal S2048x1024 .bf16)
    (p : Fin 512) (q : Fin 1024) :
    matmul dot_S512x2048_S2048x1024_S512x1024_1_0_0_1_n_n none l r (constant (F := Ideal) S512x1024 .f32 0x00000000#32) (ix2 p q)
      = 0 + ∑ k : Fin 2048, l (ix2 p k) * r (ix2 k q) := by
  refine (Ideal.matmul_constant_zero_apply dot_S512x2048_S2048x1024_S512x1024_1_0_0_1_n_n none l r (ix2 p q)).trans ?_
  rw [zero_add, ← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 p q) ((contrEquiv1 dot_S512x2048_S2048x1024_S512x1024_1_0_0_1_n_n 2048 rfl rfl).symm k) = ix2 p k :=
    funext fun a => Fin.ext (by
      match a with
      | ⟨0, _⟩ => exact lhs_mm_0 _ _
      | ⟨1, _⟩ => exact (lhs_mm_1 _ _).trans hk)
  have er : dot_S512x2048_S2048x1024_S512x1024_1_0_0_1_n_n.rhsIdx (ix2 p q) ((contrEquiv1 dot_S512x2048_S2048x1024_S512x1024_1_0_0_1_n_n 2048 rfl rfl).symm k) = ix2 k q :=
    funext fun a => Fin.ext (by
      match a with
      | ⟨0, _⟩ => exact (rhs_mm_0 _ _).trans hk
      | ⟨1, _⟩ => exact rhs_mm_1 _ _)
  rw [el, er]

/-! ## The three stored values -/

theorem pay1_apply [Cert.KernelIdeal.Facts] (p : Fin 512) (q : Fin 1024) : (k0_pay1 (F := Ideal)) (ix2 p q) = 0 := by
  unfold k0_pay1
  rw [shapeCast_self]
  exact Ideal.ofBits_zero_f32

theorem pay2_apply [Cert.KernelIdeal.Facts] (v6 : Vec Ideal S512x2048 .f32) (v7 : Vec Ideal S2048x1024 .f32) (v17 : Vec Ideal S512x1024 .f32)
    (p : Fin 512) (q : Fin 1024) :
    k0_pay2 v6 v7 v17 (ix2 p q)
      = v17 (ix2 p q) + (((0 + ∑ r : Fin 2048, v6 (ix2 p r) * v7 (ix2 r q))
          + (0 + ∑ r : Fin 2048, v6 (ix2 p r) * (v7 (ix2 r q) - v7 (ix2 r q))))
          + (0 + ∑ r : Fin 2048, (v6 (ix2 p r) - v6 (ix2 p r)) * v7 (ix2 r q))) := by
  unfold k0_pay2
  rw [shapeCast_self, shapeCast_self]
  simp only [addf_apply]
  rw [mm_apply, mm_apply, mm_apply]
  rfl

theorem pay3_apply [Cert.KernelIdeal.Facts] (v30 : Vec Ideal S512x1024 .f32) (v31 : Vec Ideal S1x1024 .f32) (p : Fin 512) (q : Fin 1024) :
    k0_pay3 v30 v31 (ix2 p q) = v30 (ix2 p q) + v31 (ix2 (0 : Fin 1) q) := by
  unfold k0_pay3
  rw [shapeCast_self]
  refine congrArg (v30 (ix2 p q) + ·) ?_
  exact broadcastTo_1b_ab_apply v31 _ p q

end Cert.SparseLinear

end
-- ==== Proof.KernelHost.lean ====
/-
  What the kernel's host operations hand the matrix product: the dense matrix built by adding every weight at its
  (row, col) entry of a zero matrix, and the bias as a row.
-/
import proofs.«404794_j4415226380843_2_alg».proof.Proof.Gen.KernelIdeal.Frame
import proofs.«404794_j4415226380843_2_alg».proof.Proof.Spec
import Idealize.ShloMosaic.Lib.StableHlo.Run
import Idealize.ShloMosaic.Lib.Pipeline.Value
import Idealize.ShloMosaic.Lib.ValueIdxRank1
import Idealize.ShloMosaic.PureOps.Ideal.Laws

noncomputable section

open scoped BigOperators

namespace Cert.SparseLinear

open Idealize.ShloMosaic Idealize.ShloMosaic.ValueIdx Idealize.ShloMosaic.TcCoe Idealize.SL.Sem
open Cert.KernelIdeal Cert.KernelIdeal.Gen

/-! ## The host operations' terms -/

/-- A signed index word wrapped once: a negative word has 8192 added. -/
def wrapIx (t : IVec S262144 32) : IVec S262144 32 :=
  select (cmpi .slt t (broadcastInDim S262144 ![] bcast_S_S262144 (constantI S_ 32 0#32)))
    (addi t (broadcastInDim S262144 ![] bcast_S_S262144 (constantI S_ 32 8192#32))) t

/-- The table of index pairs the scatter reads: the wrapped row word and the wrapped column word of each triple. -/
def pairTable (row col : IVec S262144 32) : IVec S262144x2 32 :=
  concatenate S262144x2 1
    [⟨S262144x1, broadcastInDim S262144x1 ![0] bcast_S262144_S262144x1_0 (wrapIx row)⟩,
     ⟨S262144x1, broadcastInDim S262144x1 ![0] bcast_S262144_S262144x1_0 (wrapIx col)⟩]
    concatenates_S262144x1_S262144x1_S262144x2_d1

/-- The host's dense matrix: every weight added into a zero matrix at its index pair. -/
def hostDense (w : FVec Ideal S262144 .f32) (row col : IVec S262144 32) : FVec Ideal S8192x8192 .f32 :=
  Host.scatterAdd (F := Ideal) scatter_S8192x8192_S262144x2_S262144_n_01_01_1
    (broadcastInDim S8192x8192 ![] bcast_S_S8192x8192 (constant (F := Ideal) S_ .f32 0x00000000#32))
    (pairTable row col) w

/-! ## The scatter's dimension numbers read at a triple: the start is the pair of index words, the window is a point -/

section ScatterRead

local notation "𝔇" => scatter_S8192x8192_S262144x2_S262144_n_01_01_1

theorem siIdx_zero (e : Fin 262144) (h) : ScatterDims.siIdx 𝔇 (ix1 e) ⟨0, h⟩ = ix2 e (0 : Fin 2) := by
  funext b
  match b with
  | ⟨0, _⟩ => rfl
  | ⟨1, _⟩ => rfl

theorem siIdx_one (e : Fin 262144) (h) : ScatterDims.siIdx 𝔇 (ix1 e) ⟨1, h⟩ = ix2 e (1 : Fin 2) := by
  funext b
  match b with
  | ⟨0, _⟩ => rfl
  | ⟨1, _⟩ => rfl

theorem window_eq (j : S262144.Idx) (a : Fin 2) : ScatterDims.window 𝔇 j a = 0 := by
  unfold ScatterDims.window
  rw [dif_neg]
  show ¬ a ∈ ([] : List (Fin 2))
  simp

theorem start_zero (e : Fin 262144) (idx : IVec S262144x2 32) :
    ScatterDims.start 𝔇 (ix1 e) idx (0 : Fin 2) = (idx (ix2 e (0 : Fin 2))).toInt := by
  unfold ScatterDims.start
  have h0 : (0 : Fin 2) ∈ ScatterDims.scatterDimsToOperandDims 𝔇 := by
    show (0 : Fin 2) ∈ [(0 : Fin 2), 1]
    simp
  rw [dif_pos h0]
  exact congrArg (fun i => (idx i).toInt) (siIdx_zero e _)

theorem start_one (e : Fin 262144) (idx : IVec S262144x2 32) :
    ScatterDims.start 𝔇 (ix1 e) idx (1 : Fin 2) = (idx (ix2 e (1 : Fin 2))).toInt := by
  unfold ScatterDims.start
  have h1 : (1 : Fin 2) ∈ ScatterDims.scatterDimsToOperandDims 𝔇 := by
    show (1 : Fin 2) ∈ [(0 : Fin 2), 1]
    simp
  rw [dif_pos h1]
  exact congrArg (fun i => (idx i).toInt) (siIdx_one e _)

/-- Where triple `e`'s weight lands: at the entry its two index words name, read signed. -/
theorem resultIdx?_eq_some_iff (e : Fin 262144) (idx : IVec S262144x2 32) (k c' : Fin 8192) :
    ScatterDims.resultIdx? 𝔇 (ix1 e) idx = some (ix2 k c')
      ↔ (idx (ix2 e (0 : Fin 2))).toInt = (k.val : Int) ∧ (idx (ix2 e (1 : Fin 2))).toInt = (c'.val : Int) := by
  have s0 := start_zero e idx
  have s1 := start_one e idx
  have w0 := window_eq (ix1 e) (0 : Fin 2)
  have w1 := window_eq (ix1 e) (1 : Fin 2)
  have hk := k.isLt
  have hc := c'.isLt
  unfold ScatterDims.resultIdx?
  split
  · next h =>
    have h0 := (h (0 : Fin 2)).1
    have h1 := (h (1 : Fin 2)).1
    rw [s0, w0] at h0
    rw [s1, w1] at h1
    rw [Option.some_inj]
    constructor
    · intro hf
      have e0 : (ScatterDims.start 𝔇 (ix1 e) idx (0 : Fin 2) + ((ScatterDims.window 𝔇 (ix1 e) (0 : Fin 2) : ℕ) : Int)).toNat = k.val :=
        congrArg (fun f : S8192x8192.Idx => (f (0 : Fin 2)).val) hf
      have e1 : (ScatterDims.start 𝔇 (ix1 e) idx (1 : Fin 2) + ((ScatterDims.window 𝔇 (ix1 e) (1 : Fin 2) : ℕ) : Int)).toNat = c'.val :=
        congrArg (fun f : S8192x8192.Idx => (f (1 : Fin 2)).val) hf
      rw [s0, w0] at e0
      rw [s1, w1] at e1
      omega
    · rintro ⟨ha, hb⟩
      funext a
      match a with
      | ⟨0, _⟩ =>
        exact Fin.ext (show (ScatterDims.start 𝔇 (ix1 e) idx (0 : Fin 2) + ((ScatterDims.window 𝔇 (ix1 e) (0 : Fin 2) : ℕ) : Int)).toNat = k.val by
          rw [s0, w0, ha]; omega)
      | ⟨1, _⟩ =>
        exact Fin.ext (show (ScatterDims.start 𝔇 (ix1 e) idx (1 : Fin 2) + ((ScatterDims.window 𝔇 (ix1 e) (1 : Fin 2) : ℕ) : Int)).toNat = c'.val by
          rw [s1, w1, hb]; omega)
  · next h =>
    constructor
    · intro hh
      cases hh
    · rintro ⟨ha, hb⟩
      exfalso
      apply h
      intro a
      match a with
      | ⟨0, _⟩ =>
        show 0 ≤ ScatterDims.start 𝔇 (ix1 e) idx (0 : Fin 2) + ((ScatterDims.window 𝔇 (ix1 e) (0 : Fin 2) : ℕ) : Int)
          ∧ ScatterDims.start 𝔇 (ix1 e) idx (0 : Fin 2) + ((ScatterDims.window 𝔇 (ix1 e) (0 : Fin 2) : ℕ) : Int) < ((8192 : ℕ) : Int)
        rw [s0, w0, ha]; omega
      | ⟨1, _⟩ =>
        show 0 ≤ ScatterDims.start 𝔇 (ix1 e) idx (1 : Fin 2) + ((ScatterDims.window 𝔇 (ix1 e) (1 : Fin 2) : ℕ) : Int)
          ∧ ScatterDims.start 𝔇 (ix1 e) idx (1 : Fin 2) + ((ScatterDims.window 𝔇 (ix1 e) (1 : Fin 2) : ℕ) : Int) < ((8192 : ℕ) : Int)
        rw [s1, w1, hb]; omega

end ScatterRead

/-! ## The pair table read at a triple -/

section TableRead

/-- A word that is not negative is its own wrap. -/
theorem wrapIx_apply (t : IVec S262144 32) (i : S262144.Idx) (h : 0 ≤ (t i).toInt) : wrapIx t i = t i := by
  show Scalar.select (IntOp.cmpi .slt (t i) 0#32) (t i + 8192#32) (t i) = t i
  have hb : (t i).slt 0#32 = false := by
    rw [BitVec.slt_eq_decide]
    simp only [BitVec.toInt_zero, decide_eq_false_iff_not, not_lt]
    exact h
  have hc : IntOp.cmpi .slt (t i) 0#32 = 0#1 := by
    show BitVec.ofBool ((t i).slt 0#32) = 0#1
    rw [hb]; rfl
  rw [hc, select_zero]

/-- Column 0 of the pair table is the wrapped row word. -/
theorem pairTable_zero (row col : IVec S262144 32) (e : Fin 262144) :
    pairTable row col (ix2 e (0 : Fin 2)) = wrapIx row (ix1 e) := by
  unfold pairTable
  refine (concatenate_pair_apply_left (t := S262144x2) (s₁ := S262144x1) (s₂ := S262144x1) (1 : Fin 2) _ _ concatenates_S262144x1_S262144x1_S262144x2_d1 (ix2 e (0 : Fin 2)) rfl
    (ix2 e (0 : Fin 1)) (fun b => match b with | ⟨0, _⟩ => rfl | ⟨1, _⟩ => rfl)).trans ?_
  exact broadcastInDim_apply _ bcast_S262144_S262144x1_0 (wrapIx row) (ix2 e (0 : Fin 1)) (ix1 e) (fun a => match a with
    | ⟨0, _⟩ => by show e.val = if (262144 : Nat) = 1 then 0 else e.val; rw [if_neg (by decide)])

/-- Column 1 of the pair table is the wrapped column word. -/
theorem pairTable_one (row col : IVec S262144 32) (e : Fin 262144) :
    pairTable row col (ix2 e (1 : Fin 2)) = wrapIx col (ix1 e) := by
  unfold pairTable
  refine (concatenate_pair_apply_right (t := S262144x2) (s₁ := S262144x1) (s₂ := S262144x1) (1 : Fin 2) _ _ concatenates_S262144x1_S262144x1_S262144x2_d1 (ix2 e (1 : Fin 2)) rfl rfl
    (ix2 e (0 : Fin 1)) (fun b => match b with | ⟨0, _⟩ => fun _ => rfl | ⟨1, _⟩ => fun hne => absurd rfl hne) rfl).trans ?_
  exact broadcastInDim_apply _ bcast_S262144_S262144x1_0 (wrapIx col) (ix2 e (0 : Fin 1)) (ix1 e) (fun a => match a with
    | ⟨0, _⟩ => by show e.val = if (262144 : Nat) = 1 then 0 else e.val; rw [if_neg (by decide)])

end TableRead

/-! ## The scattered sum is the dense matrix's entry -/

section Dense

local notation "𝔇" => scatter_S8192x8192_S262144x2_S262144_n_01_01_1

/-- A 32-bit word that is not negative as a signed number is the same number unsigned. -/
theorem toInt_eq_toNat_of_nonneg (x : BitVec 32) (h : 0 ≤ x.toInt) : x.toInt = (x.toNat : Int) := by
  have h2 := x.isLt
  rw [BitVec.toInt_eq_toNat_cond] at h ⊢
  split_ifs at h ⊢ <;> omega

/-- The host's dense matrix at (k, c') is the sum of the weights of the triples whose index pair is (k, c'). -/
theorem hostDense_apply (w : FVec Ideal S262144 .f32) (row col : IVec S262144 32)
    (hrow : InRange row) (hcol : InRange col) (k c' : Fin 8192) :
    hostDense w row col (ix2 k c') = denseAt w row col k c' := by
  show Ideal.ofBits .f32 0x00000000#32
      + ∑ j ∈ Finset.univ.filter (fun j : S262144.Idx => ScatterDims.resultIdx? 𝔇 j (pairTable row col) = some (ix2 k c')), w j = _
  rw [Ideal.ofBits_zero_f32]
  unfold denseAt
  refine congrArg (fun z : EReal => 0 + z) ?_
  rw [Finset.sum_filter, Finset.sum_filter]
  refine (Equiv.sum_comp idxEquiv1.symm _).symm.trans ?_
  refine Finset.sum_congr rfl fun e _ => ?_
  have hiff : ScatterDims.resultIdx? 𝔇 (ix1 e) (pairTable row col) = some (ix2 k c')
      ↔ ((row (ix1 e)).toNat = k.val ∧ (col (ix1 e)).toNat = c'.val) := by
    rw [resultIdx?_eq_some_iff, pairTable_zero, pairTable_one, wrapIx_apply _ _ (hrow _).1, wrapIx_apply _ _ (hcol _).1,
      toInt_eq_toNat_of_nonneg _ (hrow _).1, toInt_eq_toNat_of_nonneg _ (hcol _).1]
    omega
  exact if_congr hiff rfl rfl

end Dense

/-! ## What the region finds -/

variable (m : (ℓ : Loc nD τ sig) → Buf (Elt Ideal) ℓ)

set_option maxHeartbeats 2000000 in
/-- `main_v14` after the host operations is the host's dense matrix of the launched weights and index words. -/
theorem V_main_v14_eq (c : Dev nD) :
    (V m c main_v14 : S8192x8192.Idx → EReal)
      = hostDense (m ((c : Thread nD τ).loc main_arg1)) (m ((c : Thread nD τ).loc main_arg3)) (m ((c : Thread nD τ).loc main_arg4)) := by
  dsimp only [Gen.V, Gen.hostOps0]; after_results_simp; rfl

/-- `main_v15` after the host operations is the launched bias column reshaped to a row. -/
theorem V_main_v15_eq (c : Dev nD) :
    (V m c main_v15 : S1x8192.Idx → EReal)
      = shapeCast S1x8192 (m ((c : Thread nD τ).loc main_arg2)) shapeCasts_S8192x1_S1x8192 := by
  dsimp only [Gen.V, Gen.hostOps0]; after_results; rfl

/-- The matrix the region finds in `main_v14` is the dense matrix of the triples. -/
theorem dense_eq (c : Dev nD)
    (hrow : InRange (m ((c : Thread nD τ).loc main_arg3))) (hcol : InRange (m ((c : Thread nD τ).loc main_arg4)))
    (k c' : Fin 8192) :
    (V m c main_v14 : S8192x8192.Idx → EReal) (ix2 k c')
      = denseAt (m ((c : Thread nD τ).loc main_arg1)) (m ((c : Thread nD τ).loc main_arg3)) (m ((c : Thread nD τ).loc main_arg4)) k c' := by
  rw [V_main_v14_eq]
  exact hostDense_apply _ _ _ hrow hcol k c'

/-- The row the region finds in `main_v15` is the bias column laid flat. -/
theorem biasrow_eq (c : Dev nD) (c' : Fin 8192) :
    (V m c main_v15 : S1x8192.Idx → EReal) (ix2 (0 : Fin 1) c') = m ((c : Thread nD τ).loc main_arg2) (ix2 c' (0 : Fin 1)) := by
  rw [V_main_v15_eq]
  refine shapeCast_apply _ _ _ _ ?_
  show (S8192x1.rowMajor (ix2 c' (0 : Fin 1))).val = (S1x8192.rowMajor (ix2 (0 : Fin 1) c')).val
  rw [Shape.rowMajor_val_two, Shape.rowMajor_val_two]
  show c'.val * 1 + 0 = 0 * 8192 + c'.val
  omega

end Cert.SparseLinear

end
-- ==== Proof.Pieces.lean ====
/-
  What one run of the kernel body leaves in the accumulator and in the output block, as pure functions of the
  blocks it loads: at the first reduction step the accumulator is the step's product over a zero block; at a
  later step it is the previous accumulator plus the step's product; at the last step the output block is that
  accumulator plus the bias row.
-/
import proofs.«404794_j4415226380843_2_alg».proof.Proof.Gen.KernelIdeal.Frame
import Idealize.ShloMosaic.Lib.Pipeline.Value
import Idealize.ShloMosaic.Lib.Tactic

set_option maxRecDepth 16384

noncomputable section

namespace Cert.SparseLinear

open Cert.KernelIdeal Cert.KernelIdeal.Gen
open Idealize.ShloMosaic Idealize.ShloMosaic.TcCoe Idealize.ShloMosaic.Tactic
open Idealize.SL Idealize.SL.Sem

variable {F : FTy → Type} [FloatOps F]

/-- The literal zero offsets of a whole-block access. -/
theorem zero_off2 : (![0, 0] : Fin 2 → ℕ) = fun _ => 0 := by
  funext a; fin_cases a <;> rfl

/-- The slab of the activations the body loads at grid point `i`: all 512 rows, the 2048 columns of the point's
    reduction step. -/
abbrev xslab (i : grid0.Coords) (x0 : Vec F S512x8192 .f32) : Vec F S512x2048 .f32 :=
  View.ld x0 (Rect.unit (k0_off1 i) S512x2048.size (k0_off1_inb i))

/-- First reduction step: the accumulator is zeroed, then the step's product is added to it. -/
theorem acc_first (c : Dev nD) (i : grid0.Coords) (arg2 : Memref sig .tc .vmem S512x8192 .f32) (harg2 : arg2.IsWhole) (arg3 : Memref sig .tc .vmem S2048x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : cond0_0 i) (hc1 : ¬cond0_1 i)
    (x0 : Vec F S512x8192 .f32) (x1 : Vec F S2048x1024 .f32) (x2 : Vec F S1x1024 .f32) :
    sout0_A_0 c i arg2 harg2 arg3 harg3 arg4 harg4 arg5 harg5 arg6 harg6 hc0 hc1 x0 x1 x2
      = k0_pay2 (xslab i x0) x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_run_names
  rw [View.canon_cons_unit_zero (S := S512x1024) zero_off2, View.readCov_unit_zero (S := S512x1024) _ zero_off2]
  simp only [View.readAt_eq_ld, harg2.read_unread, harg3.read_unread, View.ld_unit_zero (S := S2048x1024) zero_off2]

/-- A middle reduction step: the previous accumulator plus the step's product. -/
theorem acc_middle (c : Dev nD) (i : grid0.Coords) (arg2 : Memref sig .tc .vmem S512x8192 .f32) (harg2 : arg2.IsWhole) (arg3 : Memref sig .tc .vmem S2048x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond0_0 i) (hc1 : ¬cond0_1 i)
    (x0 : Vec F S512x8192 .f32) (x1 : Vec F S2048x1024 .f32) (x2 : Vec F S1x1024 .f32) (xs0 : Vec F S512x1024 .f32) :
    sout0_B_0 c i arg2 harg2 arg3 harg3 arg4 harg4 arg5 harg5 arg6 harg6 hc0 hc1 x0 x1 x2 xs0
      = k0_pay2 (xslab i x0) x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_run_names
  rw [View.canon_unit_zero (S := S512x1024) zero_off2]
  simp only [View.readAt_eq_ld, harg2.read_unread, harg3.read_unread, harg6.read_unread, View.ld_unit_zero (S := S2048x1024) zero_off2,
    View.ld_unit_zero (S := S512x1024) zero_off2]

/-- The last reduction step leaves the same in the accumulator … -/
theorem acc_last (c : Dev nD) (i : grid0.Coords) (arg2 : Memref sig .tc .vmem S512x8192 .f32) (harg2 : arg2.IsWhole) (arg3 : Memref sig .tc .vmem S2048x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond0_0 i) (hc1 : cond0_1 i)
    (x0 : Vec F S512x8192 .f32) (x1 : Vec F S2048x1024 .f32) (x2 : Vec F S1x1024 .f32) (xs0 : Vec F S512x1024 .f32) :
    sout0_C_0 c i arg2 harg2 arg3 harg3 arg4 harg4 arg5 harg5 arg6 harg6 hc0 hc1 x0 x1 x2 xs0
      = k0_pay2 (xslab i x0) x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_run_names
  rw [View.canon_unit_zero (S := S512x1024) zero_off2]
  simp only [View.readAt_eq_ld, harg2.read_unread, harg3.read_unread, harg6.read_unread, View.ld_unit_zero (S := S2048x1024) zero_off2,
    View.ld_unit_zero (S := S512x1024) zero_off2]

/-- … and writes the output block: that accumulator plus the bias row. -/
theorem out_last (c : Dev nD) (i : grid0.Coords) (arg2 : Memref sig .tc .vmem S512x8192 .f32) (harg2 : arg2.IsWhole) (arg3 : Memref sig .tc .vmem S2048x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (hc0 : ¬cond0_0 i) (hc1 : cond0_1 i)
    (x0 : Vec F S512x8192 .f32) (x1 : Vec F S2048x1024 .f32) (x2 : Vec F S1x1024 .f32) (xs0 : Vec F S512x1024 .f32) :
    out0_C_3 c i arg2 harg2 arg3 harg3 arg4 harg4 arg5 harg5 arg6 harg6 hc0 hc1 x0 x1 x2 xs0
      = k0_pay3 (k0_pay2 (xslab i x0) x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_run_names
  rw [View.canon_unit_zero (S := S512x1024) zero_off2, View.readCov_unit_zero (S := S512x1024) _ zero_off2]
  simp only [View.readAt_eq_ld, harg2.read_unread, harg3.read_unread, harg4.read_unread, harg6.read_unread,
    View.ld_unit_zero (S := S2048x1024) zero_off2, View.ld_unit_zero (S := S512x1024) zero_off2, View.ld_unit_zero (S := S1x1024) zero_off2]

end Cert.SparseLinear

end
-- ==== Proof.Blocks.lean ====
/-
  Where each window's block sits in its array. The grid has 8 output-column tiles (index n = t / 4) and, inside
  each, 4 reduction steps (index k = t % 4). At point t the activations' window is the whole array, the body
  loading from it the slab of columns [2048 k, 2048 k + 2048); the matrix window is the block of rows
  [2048 k, 2048 k + 2048) and columns [1024 n, 1024 n + 1024); the bias window and the output window are the
  columns [1024 n, 1024 n + 1024).
-/
import proofs.«404794_j4415226380843_2_alg».proof.Proof.Gen.KernelIdeal.Frame
import proofs.«404794_j4415226380843_2_alg».proof.Proof.Pieces
import Idealize.ShloMosaic.Lib.ValueIdx

noncomputable section

namespace Cert.SparseLinear

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-- The printed index maps and the slab's column offset, decided once over the 32 grid points. -/
theorem grid_facts : ∀ t : Fin cfg0.N,
    win0_0.index t (0 : Fin 2) = 0 ∧ win0_0.index t (1 : Fin 2) = 0
    ∧ win0_1.index t (0 : Fin 2) = t.val % 4 ∧ win0_1.index t (1 : Fin 2) = t.val / 4
    ∧ win0_2.index t (0 : Fin 2) = 0 ∧ win0_2.index t (1 : Fin 2) = t.val / 4
    ∧ win0_3.index t (0 : Fin 2) = 0 ∧ win0_3.index t (1 : Fin 2) = t.val / 4
    ∧ k0_off1 (grid0.coords t) (0 : Fin 2) = 0 ∧ k0_off1 (grid0.coords t) (1 : Fin 2) = 2048 * (t.val % 4) :=
  (by decide +kernel : ∀ t : Fin grid0.N, _)

/-- The activations' window holds the whole array. -/
theorem xblock_apply (c : Dev nD) (t : Fin cfg0.N) (p : Fin 512) (k : Fin 8192) :
    (iblk m c 0 t : Vec F S512x8192 .f32) (ix2 p k) = m ((c : Thread nD τ).loc main_arg0) (ix2 p k) := by
  obtain ⟨e0, e1, -⟩ := grid_facts t
  unfold iblk
  rw [View.read_apply]
  show V m c main_arg0 _ = _
  rw [V_main_arg0]
  congr 1
  funext a
  apply Fin.ext
  match a with
  | ⟨0, _⟩ => show win0_0.index t (0 : Fin 2) * 512 + 1 * p.val = p.val; rw [e0]; omega
  | ⟨1, _⟩ => show win0_0.index t (1 : Fin 2) * 8192 + 1 * k.val = k.val; rw [e1]; omega

/-- The slab the body loads at point t is the columns [2048 k, 2048 k + 2048) of the activations. -/
theorem xslab_apply (t : Fin cfg0.N) (x0 : Vec F S512x8192 .f32) (p : Fin 512) (r : Fin 2048) (k : Fin 8192)
    (hk : k.val = 2048 * (t.val % 4) + r.val) :
    xslab (grid0.coords t) x0 (ix2 p r) = x0 (ix2 p k) := by
  obtain ⟨-, -, -, -, -, -, -, -, o0, o1⟩ := grid_facts t
  show x0 _ = x0 _
  congr 1
  funext a
  apply Fin.ext
  match a with
  | ⟨0, _⟩ => show k0_off1 (grid0.coords t) (0 : Fin 2) + 1 * p.val = p.val; rw [o0]; omega
  | ⟨1, _⟩ => show k0_off1 (grid0.coords t) (1 : Fin 2) + 1 * r.val = k.val; rw [o1]; omega

/-- The matrix window at point t is rows [2048 k, …) and columns [1024 n, …) of the matrix the region finds. -/
theorem ablock_apply (c : Dev nD) (t : Fin cfg0.N) (r : Fin 2048) (q : Fin 1024) (k c' : Fin 8192)
    (hk : k.val = 2048 * (t.val % 4) + r.val) (hc : c'.val = 1024 * (t.val / 4) + q.val) :
    (iblk m c 1 t : Vec F S2048x1024 .f32) (ix2 r q) = (V m c main_v14 : S8192x8192.Idx → Elt F .f32) (ix2 k c') := by
  obtain ⟨-, -, e0, e1, -⟩ := grid_facts t
  unfold iblk
  rw [View.read_apply]
  show V m c main_v14 _ = V m c main_v14 _
  congr 1
  funext a
  apply Fin.ext
  match a with
  | ⟨0, _⟩ => show win0_1.index t (0 : Fin 2) * 2048 + 1 * r.val = k.val; rw [e0]; omega
  | ⟨1, _⟩ => show win0_1.index t (1 : Fin 2) * 1024 + 1 * q.val = c'.val; rw [e1]; omega

/-- The bias window at point t is the columns [1024 n, …) of the bias row. -/
theorem bblock_apply (c : Dev nD) (t : Fin cfg0.N) (q : Fin 1024) (c' : Fin 8192)
    (hc : c'.val = 1024 * (t.val / 4) + q.val) :
    (iblk m c 2 t : Vec F S1x1024 .f32) (ix2 (0 : Fin 1) q) = (V m c main_v15 : S1x8192.Idx → Elt F .f32) (ix2 (0 : Fin 1) c') := by
  obtain ⟨-, -, -, -, e0, e1, -⟩ := grid_facts t
  unfold iblk
  rw [View.read_apply]
  show V m c main_v15 _ = V m c main_v15 _
  congr 1
  funext a
  apply Fin.ext
  match a with
  | ⟨0, _⟩ => show win0_2.index t (0 : Fin 2) * 1 + 1 * 0 = 0; rw [e0]
  | ⟨1, _⟩ => show win0_2.index t (1 : Fin 2) * 1024 + 1 * q.val = c'.val; rw [e1]; omega

end Cert.SparseLinear

end
-- ==== Proof.KernelValue.lean ====
/-
  The kernel's result array. Over the four reduction steps of an output-column tile the accumulator gathers, step
  by step, the three-pass products of the activations' slab with the matrix block; on real entries each step's
  three passes are the plain product of the slab with the block, the four steps together the full sum over the
  8192 input features, and the last step adds the bias: the tile is x times the dense matrix plus bias, which is
  the layer's output triple by triple. The tiles cover the array.
-/
import proofs.«404794_j4415226380843_2_alg».proof.Proof.Gen.KernelIdeal.Value
import proofs.«404794_j4415226380843_2_alg».proof.Proof.Spec
import proofs.«404794_j4415226380843_2_alg».proof.Proof.Algebra
import proofs.«404794_j4415226380843_2_alg».proof.Proof.Payload
import proofs.«404794_j4415226380843_2_alg».proof.Proof.KernelHost
import proofs.«404794_j4415226380843_2_alg».proof.Proof.Pieces
import proofs.«404794_j4415226380843_2_alg».proof.Proof.Blocks
import Idealize.ShloMosaic.Lib.Pipeline.Value

noncomputable section

open scoped BigOperators

namespace Cert.SparseLinear

open Cert.KernelIdeal Cert.KernelIdeal.Gen Cert.KernelIdeal.Value
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The three passes of one reduction step at entry (p, q) of the tile: slab·block, slab·(block − block),
    (slab − slab)·block, each a sum of 2048 products over a zero start. -/
def passesAt (v6 : Vec Ideal S512x2048 .f32) (v7 : Vec Ideal S2048x1024 .f32) (p : Fin 512) (q : Fin 1024) : EReal :=
  ((0 + ∑ r : Fin 2048, v6 (ix2 p r) * v7 (ix2 r q))
      + (0 + ∑ r : Fin 2048, v6 (ix2 p r) * (v7 (ix2 r q) - v7 (ix2 r q))))
    + (0 + ∑ r : Fin 2048, (v6 (ix2 p r) - v6 (ix2 p r)) * v7 (ix2 r q))

/-- What grid point n adds to the accumulator (zero past the grid, where it is never used). -/
def addend (c : Dev nD) (n : ℕ) : S512x1024.Idx → EReal := fun i =>
  if h : n < cfg0.N then
    passesAt (xslab (grid0.coords ⟨n, h⟩) (iblk m c 0 ⟨n, h⟩)) (iblk m c 1 ⟨n, h⟩) ⟨(i 0).val, (i 0).isLt⟩ ⟨(i 1).val, (i 1).isLt⟩
  else 0

theorem addend_ix2 (c : Dev nD) (n : ℕ) (h : n < cfg0.N) (p : Fin 512) (q : Fin 1024) :
    addend m c n (ix2 p q) = passesAt (xslab (grid0.coords ⟨n, h⟩) (iblk m c 0 ⟨n, h⟩)) (iblk m c 1 ⟨n, h⟩) p q := by
  unfold addend
  rw [dif_pos h]

/-- At the first step of a tile the accumulator is the step's addend over zero. -/
theorem reset_apply (c : Dev nD) (n : ℕ) (h : n < cfg0.N) (h0 : n % 4 = 0) (i : S512x1024.Idx) :
    scAt0_0 m c n h (VS0_0.read (Elt Ideal) VS0_0.junk) i = 0 + addend m c n i := by
  obtain ⟨p, q, rfl⟩ : ∃ (p : Fin 512) (q : Fin 1024), i = ix2 p q := ⟨i 0, i 1, eq_ix2 i⟩
  unfold scAt0_0
  rw [dif_pos h0, dif_neg (by omega), acc_first, pay2_apply, pay1_apply, addend_ix2 m c n h]
  rfl

/-- At every later step it is the previous accumulator plus the step's addend. -/
theorem step_apply (c : Dev nD) (n : ℕ) (h : n < cfg0.N) (hne : ¬n % 4 = 0) (acc : Vec Ideal S512x1024 .f32) (i : S512x1024.Idx) :
    scAt0_0 m c n h acc i = acc i + addend m c n i := by
  obtain ⟨p, q, rfl⟩ : ∃ (p : Fin 512) (q : Fin 1024), i = ix2 p q := ⟨i 0, i 1, eq_ix2 i⟩
  unfold scAt0_0
  rw [dif_neg hne]
  by_cases h1 : n % 4 = 3
  · rw [dif_pos h1, acc_last, pay2_apply, addend_ix2 m c n h]
    rfl
  · rw [dif_neg h1, acc_middle, pay2_apply, addend_ix2 m c n h]
    rfl

/-- The accumulator after point t: zero plus the addends of the tile's steps so far. -/
theorem acc_fold (c : Dev nD) (t : Fin cfg0.N) (i : S512x1024.Idx) :
    (outsAt0 m c t.val t.isLt).2 i = 0 + ∑ s ∈ Finset.range (t.val % 4 + 1), addend m c (4 * (t.val / 4) + s) i := by
  rw [soutsAt0_0_eq m c t]
  exact Pipeline.accAt_add_apply (ι := S512x1024.Idx) (β := EReal)
    (fun n h => scAt0_0 m c n h (VS0_0.read (Elt Ideal) VS0_0.junk)) (scAt0_0 m c) (fun _ => 0) (addend m c)
    (4 * (t.val / 4)) 3
    (fun h i => reset_apply m c _ h (by omega) i)
    (fun n h acc i hlt hle => step_apply m c n h (by omega) acc i)
    (t.val % 4) (by omega) _ i

/-- At a tile's last step the output block is the accumulator plus the bias row. -/
theorem outblock_eq (c : Dev nD) (t : Fin cfg0.N) (h3 : t.val % 4 = 3) :
    (outsAt0 m c t.val t.isLt).1 = k0_pay3 ((outsAt0 m c t.val t.isLt).2) (iblk m c 2 t) := by
  rw [outsAt0_C m c t (by omega) h3]
  dsimp only
  rw [out_last, acc_last]

/-- One term of the full product at output column c': x[p, k] · A[k, c']. -/
abbrev term (x : SX.Idx → EReal) (w : SE.Idx → EReal) (row col : SE.Idx → BitVec 32) (p : Fin 512) (c' : Fin 8192) :
    Fin 8192 → EReal :=
  fun k => x (ix2 p k) * denseAt w row col k c'

section Values

variable (c : Dev nD)
  (hx : Finite (m ((c : Thread nD τ).loc main_arg0))) (hw : Finite (m ((c : Thread nD τ).loc main_arg1)))
  (hrow : InRange (m ((c : Thread nD τ).loc main_arg3))) (hcol : InRange (m ((c : Thread nD τ).loc main_arg4)))

include hx hw hrow hcol in
/-- On real entries, step s of tile n adds the plain product of the slab with the block: the terms
    2048 s … 2048 s + 2047 of the full product (`kk` names them). -/
theorem addend_block (n s : ℕ) (hn : n < 8) (hs : s < 4) (p : Fin 512) (q : Fin 1024) (c' : Fin 8192)
    (hc : c'.val = 1024 * n + q.val) (kk : Fin 2048 → Fin 8192) (hkk : ∀ r, (kk r).val = 2048 * s + r.val) :
    addend m c (4 * n + s) (ix2 p q)
      = ∑ r : Fin 2048, term (m ((c : Thread nD τ).loc main_arg0)) (m ((c : Thread nD τ).loc main_arg1))
          (m ((c : Thread nD τ).loc main_arg3)) (m ((c : Thread nD τ).loc main_arg4)) p c' (kk r) := by
  have hN : 4 * n + s < cfg0.N := by rw [show cfg0.N = 32 from N_0]; omega
  have hmod : (4 * n + s) % 4 = s := by omega
  have hdiv : (4 * n + s) / 4 = n := by omega
  have ex : ∀ r : Fin 2048, xslab (grid0.coords ⟨4 * n + s, hN⟩) (iblk m c 0 ⟨4 * n + s, hN⟩) (ix2 p r)
      = m ((c : Thread nD τ).loc main_arg0) (ix2 p (kk r)) := fun r => by
    rw [xslab_apply ⟨4 * n + s, hN⟩ _ p r (kk r) (by show (kk r).val = 2048 * ((4 * n + s) % 4) + r.val; rw [hmod]; exact hkk r),
      xblock_apply]
  have ea : ∀ r : Fin 2048, (iblk m c 1 ⟨4 * n + s, hN⟩ : Vec Ideal S2048x1024 .f32) (ix2 r q)
      = denseAt (m ((c : Thread nD τ).loc main_arg1)) (m ((c : Thread nD τ).loc main_arg3)) (m ((c : Thread nD τ).loc main_arg4))
          (kk r) c' := fun r => by
    rw [ablock_apply m c ⟨4 * n + s, hN⟩ r q (kk r) c'
        (by show (kk r).val = 2048 * ((4 * n + s) % 4) + r.val; rw [hmod]; exact hkk r)
        (by show c'.val = 1024 * ((4 * n + s) / 4) + q.val; rw [hdiv]; exact hc)]
    exact dense_eq m c hrow hcol _ _
  rw [addend_ix2 m c _ hN]
  unfold passesAt
  refine (passes_eq (fun r => xslab (grid0.coords ⟨4 * n + s, hN⟩) (iblk m c 0 ⟨4 * n + s, hN⟩) (ix2 p r))
    (fun r => (iblk m c 1 ⟨4 * n + s, hN⟩ : Vec Ideal S2048x1024 .f32) (ix2 r q)) ?_ ?_).trans ?_
  · intro r; rw [ex r]; exact hx _
  · intro r; rw [ea r]; exact denseAt_finite _ _ _ hw _ _
  · exact Finset.sum_congr rfl fun r _ => by rw [ex r, ea r]

/-- The layer's output array, of the argument arrays as launched. -/
abbrev layerOut : Buf (Elt Ideal) ((c : Thread nD τ).loc main_v16) :=
  result (m ((c : Thread nD τ).loc main_arg0)) (m ((c : Thread nD τ).loc main_arg1)) (m ((c : Thread nD τ).loc main_arg2))
    (m ((c : Thread nD τ).loc main_arg3)) (m ((c : Thread nD τ).loc main_arg4))

include hx hw hrow hcol in
/-- Entry (p, q) of the tile a last step writes is the layer's output at (p, 1024 n + q). -/
theorem tile_apply (t : Fin cfg0.N) (h3 : t.val % 4 = 3) (p : Fin 512) (q : Fin 1024) (c' : Fin 8192)
    (hc : c'.val = 1024 * (t.val / 4) + q.val) :
    (outsAt0 m c t.val t.isLt).1 (ix2 p q)
      = resultAt (m ((c : Thread nD τ).loc main_arg0)) (m ((c : Thread nD τ).loc main_arg1)) (m ((c : Thread nD τ).loc main_arg2))
          (m ((c : Thread nD τ).loc main_arg3)) (m ((c : Thread nD τ).loc main_arg4)) p c' := by
  have hN : t.val < 32 := lt_of_lt_of_eq t.isLt (show cfg0.N = 32 from N_0)
  rw [outblock_eq m c t h3, pay3_apply, acc_fold m c t (ix2 p q), h3, zero_add, bblock_apply m c t q c' hc, biasrow_eq,
    ← gemm_eq_result _ _ _ _ _ hx hw hrow p c']
  unfold gemmAt
  refine congrArg (· + _) ?_
  simp only [Finset.sum_range_succ, Finset.sum_range_zero]
  rw [addend_block m c hx hw hrow hcol (t.val / 4) 0 (by omega) (by omega) p q c' hc (fun r => ⟨r.val, by omega⟩) (fun r => by simp),
    addend_block m c hx hw hrow hcol (t.val / 4) 1 (by omega) (by omega) p q c' hc (fun r => ⟨2048 + r.val, by omega⟩) (fun r => by simp),
    addend_block m c hx hw hrow hcol (t.val / 4) 2 (by omega) (by omega) p q c' hc (fun r => ⟨4096 + r.val, by omega⟩) (fun r => by simp),
    addend_block m c hx hw hrow hcol (t.val / 4) 3 (by omega) (by omega) p q c' hc (fun r => ⟨6144 + r.val, by omega⟩) (fun r => by simp)]
  exact sum_four_blocks (term (m ((c : Thread nD τ).loc main_arg0)) (m ((c : Thread nD τ).loc main_arg1))
    (m ((c : Thread nD τ).loc main_arg3)) (m ((c : Thread nD τ).loc main_arg4)) p c')

/-- An index of the output array is in point t's block iff each coordinate is in the block's range. -/
theorem mem_oblock (t : Fin cfg0.N) (i : S512x8192.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v16).slice (win0_3.rect t)).set ↔ _
  rw [View.set_slice_whole, Rect.mem_set_unit]
  exact Iff.rfl

/-- Every output index lies in the tile its column belongs to, which that tile's last step writes back. -/
theorem cover (i : S512x8192.Idx) : ∃ t : Fin cfg0.N, (cfg0.win 3).flush t = true ∧ i ∈ ((cfg0.win 3).blk t).view.set := by
  have h0 : (i 0).val < 512 := (i 0).isLt
  have h1 : (i 1).val < 8192 := (i 1).isLt
  have hN : cfg0.N = 32 := N_0
  obtain ⟨tt, htt⟩ : ∃ tt : Fin cfg0.N, tt.val = 4 * ((i 1).val / 1024) + 3 := ⟨⟨4 * ((i 1).val / 1024) + 3, by rw [hN]; omega⟩, rfl⟩
  obtain ⟨-, -, -, -, -, -, e0, e1, -⟩ := grid_facts tt
  refine ⟨tt, (flush0_3 tt).mpr (by omega), ?_⟩
  rw [mem_oblock]
  intro a
  match a with
  | ⟨0, _⟩ =>
    show win0_3.index tt (0 : Fin 2) * 512 ≤ (i 0).val ∧ (i 0).val < win0_3.index tt (0 : Fin 2) * 512 + 512
    rw [e0]; omega
  | ⟨1, _⟩ =>
    show win0_3.index tt (1 : Fin 2) * 1024 ≤ (i 1).val ∧ (i 1).val < win0_3.index tt (1 : Fin 2) * 1024 + 1024
    rw [e1]; omega

include hx hw hrow hcol in
/-- What a tile's last step writes back is its block of the layer's output. -/
theorem flushed_eq (t : Fin cfg0.N) (hf : (cfg0.win 3).flush t = true) :
    (dats m 0 c).flushed 3 t = ((cfg0.win 3).blk t).view.read (Elt Ideal) (layerOut m c) := by
  have h3 : t.val % 4 = 3 := (flush0_3 t).mp hf
  have hN : t.val < 32 := lt_of_lt_of_eq t.isLt (show cfg0.N = 32 from N_0)
  obtain ⟨-, -, -, -, -, -, e0, e1, -⟩ := grid_facts t
  rw [flushed3]
  funext j
  have hj0 : (j 0).val < 512 := (j 0).isLt
  have hj1 : (j 1).val < 1024 := (j 1).isLt
  show (outsAt0 m c t.val t.isLt).1 j = layerOut m c (((cfg0.win 3).blk t).view.emb j)
  have hj : (j : S512x1024.Idx) = ix2 (⟨(j 0).val, hj0⟩ : Fin 512) (⟨(j 1).val, hj1⟩ : Fin 1024) := by
    funext a; match a with | ⟨0, _⟩ => rfl | ⟨1, _⟩ => rfl
  refine (congrArg (outsAt0 m c t.val t.isLt).1 hj).trans ?_
  rw [tile_apply m c hx hw hrow hcol t h3 ⟨(j 0).val, hj0⟩ ⟨(j 1).val, hj1⟩ ⟨1024 * (t.val / 4) + (j 1).val, by omega⟩ rfl]
  refine congrArg₂ (resultAt (m ((c : Thread nD τ).loc main_arg0)) (m ((c : Thread nD τ).loc main_arg1)) (m ((c : Thread nD τ).loc main_arg2))
    (m ((c : Thread nD τ).loc main_arg3)) (m ((c : Thread nD τ).loc main_arg4))) (Fin.ext ?_) (Fin.ext ?_)
  · show (j 0).val = win0_3.index t (0 : Fin 2) * 512 + 1 * (j 0).val
    rw [e0]; omega
  · show 1024 * (t.val / 4) + (j 1).val = win0_3.index t (1 : Fin 2) * 1024 + 1 * (j 1).val
    rw [e1]; omega

include hx hw hrow hcol in
/-- The output array after the run is the layer's output. -/
theorem final : (dats m 0 c).arrAt 3 cfg0.N = layerOut m c :=
  (dats m 0 c).arrAt_eq_of_cover 3 (layerOut m c) (flushed_eq m c hx hw hrow hcol) cover

end Values

/-- The kernel's run: under the facts the precondition gives, every execution ends with the result array at the
    layer's output and the arguments unchanged. -/
theorem kernel_run
    (hfacts : ∀ c : Dev nD, Finite (m ((c : Thread nD τ).loc main_arg0)) ∧ Finite (m ((c : Thread nD τ).loc main_arg1))
      ∧ InRange (m ((c : Thread nD τ).loc main_arg3)) ∧ InRange (m ((c : Thread nD τ).loc main_arg4))) :
    θ_run defs (onTc (τ := τ) (main (F := Ideal))) ⟨m, fun _ => 0, ρ⟩ fun r => ∀ c : Dev nD,
      r.2.mem ((c : Thread nD τ).loc main_v16) = layerOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hfacts c).1 (hfacts c).2.1 (hfacts c).2.2.1 (hfacts c).2.2.2), (h c).2⟩)
    (run_blocks m ρ)

end Cert.SparseLinear

end
-- ==== Proof.lean ====
/-
  A sparse linear layer, y[b, c] = sum over the triples e with col e = c of w e · x[b, row e], plus bias[c]: a kernel
  that first builds the dense 8192 × 8192 matrix of the triples and then multiplies the activations by it — tile by
  tile, each product taken in three passes over the values and their rounding residuals, accumulated over four
  reduction steps — against a reference that gathers the rows of the transposed activations, scales them by the
  weights and adds them into the segment of their output column.

  Over the extended reals the kernel's residuals are v − v, zero on real entries, so each step's three passes are one
  product; the four steps sum over all 8192 input features; and x times the dense matrix is the sum over the triples
  because multiplication distributes over the finite inner sum of real weights and every row index names one input
  feature. That is where the precondition enters: the float inputs are real numbers, and both index tables lie in
  [0, 8192) — outside that range the reference clamps a row index and drops a column index while the scatter that
  builds the dense matrix wraps a negative column and drops an overlarge row, and the two programs part.

  The three frames are the programs' runs with the results forgotten; the two format round trips the idealization
  removed are the identity on extended reals.
-/
import proofs.«404794_j4415226380843_2_alg».proof.Defs
import proofs.«404794_j4415226380843_2_alg».proof.Proof.Gen.Kernel
import proofs.«404794_j4415226380843_2_alg».proof.Proof.Gen.Kernel.Skeleton
import proofs.«404794_j4415226380843_2_alg».proof.Proof.Gen.Kernel.Launch
import proofs.«404794_j4415226380843_2_alg».proof.Proof.Gen.Kernel.Points
import proofs.«404794_j4415226380843_2_alg».proof.Proof.Gen.Kernel.Frame
import proofs.«404794_j4415226380843_2_alg».proof.Proof.Gen.KernelIdeal
import proofs.«404794_j4415226380843_2_alg».proof.Proof.Gen.KernelIdeal.Skeleton
import proofs.«404794_j4415226380843_2_alg».proof.Proof.Gen.KernelIdeal.Launch
import proofs.«404794_j4415226380843_2_alg».proof.Proof.Gen.KernelIdeal.Points
import proofs.«404794_j4415226380843_2_alg».proof.Proof.Gen.KernelIdeal.Frame
import proofs.«404794_j4415226380843_2_alg».proof.Proof.Gen.ReferenceIdeal
import proofs.«404794_j4415226380843_2_alg».proof.Proof.Gen.KernelIdeal.Value
import proofs.«404794_j4415226380843_2_alg».proof.Proof.Gen.ReferenceIdeal.Run
import proofs.«404794_j4415226380843_2_alg».proof.Proof.Gen.ReferenceIdeal.Read
import proofs.«404794_j4415226380843_2_alg».proof.Proof.Gen.Pre_finite_inputs
import proofs.«404794_j4415226380843_2_alg».proof.Proof.PreFacts
import proofs.«404794_j4415226380843_2_alg».proof.Proof.RefValue
import proofs.«404794_j4415226380843_2_alg».proof.Proof.KernelValue
import Idealize.ShloMosaic.Adequacy
import Idealize.ShloMosaic.Init

noncomputable section

namespace Cert.Proof

open Idealize.ShloMosaic Idealize.SL.Sem Cert.SparseLinear

/-- The word-level kernel runs and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Rounding to the narrow format and widening back is the identity on extended reals, at both shapes it was removed. -/
theorem preserves : Cert.preserves_Kernel_KernelIdeal :=
  ⟨IdealRules.truncf_extf.statement _ .f32 .bf16, IdealRules.truncf_extf.statement _ .f32 .bf16⟩

/-- Both idealized programs end at the layer's output of arguments that agree. -/
theorem algebraic : Cert.algebraic_KernelIdeal_ReferenceIdeal := by
  intro m ρ m' ρ' hpre hagree
  have hf := fun c => facts_of_pre _ _ _ _ _ (hpre c)
  refine ⟨fun c => layerOut m c,
    kernel_run m ρ (fun c => ⟨(hf c).1, (hf c).2.1, (hf c).2.2.2.1, (hf c).2.2.2.2⟩), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2.1, (hagree c).2.2.1, (hagree c).2.2.2.1, (hagree c).2.2.2.2]
  exact ref_eq _ _ _ _ _ (hf c).2.2.2.1 (hf c).2.2.2.2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
